-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x64 : Shape := ⟨2, ![512, 64]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S8x2048x512 .f32) (main_arg1 : FVec F S512x64 .f32) (main_arg2 : FVec F S512x64 .f32) (main_arg3 : FVec F S512x64 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S8x2048x512 : Shape := ⟨3, ![8, 2048, 512]⟩
abbrev S512x64 : Shape := ⟨2, ![512, 64]⟩
abbrev S_ : Shape := ⟨0, ![]⟩
abbrev S512x192 : Shape := ⟨2, ![512, 192]⟩
abbrev S16384x512 : Shape := ⟨2, ![16384, 512]⟩
abbrev S16384x64 : Shape := ⟨2, ![16384, 64]⟩
abbrev S2048x512 : Shape := ⟨2, ![2048, 512]⟩
abbrev S2048x64 : Shape := ⟨2, ![2048, 64]⟩
abbrev S2048x192 : Shape := ⟨2, ![2048, 192]⟩
abbrev S8x2048x64 : Shape := ⟨3, ![8, 2048, 64]⟩
abbrev S1x512x64 : Shape := ⟨3, ![1, 512, 64]⟩
abbrev S1x2048x64 : Shape := ⟨3, ![1, 2048, 64]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S8x2048x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S_, .f32⟩
  | .hbm, ⟨5, _⟩ => ⟨S512x64, .f32⟩
  | .hbm, ⟨6, _⟩ => ⟨S512x64, .f32⟩
  | .hbm, ⟨7, _⟩ => ⟨S512x192, .f32⟩
  | .hbm, ⟨8, _⟩ => ⟨S16384x512, .f32⟩
  | .hbm, ⟨9, _⟩ => ⟨S16384x64, .bf16⟩
  | .hbm, ⟨10, _⟩ => ⟨S16384x64, .bf16⟩
  | .hbm, ⟨11, _⟩ => ⟨S16384x64, .bf16⟩
  | .hbm, ⟨12, _⟩ => ⟨S8x2048x64, .bf16⟩
  | .hbm, ⟨13, _⟩ => ⟨S8x2048x64, .bf16⟩
  | .hbm, ⟨14, _⟩ => ⟨S8x2048x64, .bf16⟩
  | .hbm, ⟨15, _⟩ => ⟨S8x2048x64, .f32⟩
  | .local _ .vmem, ⟨0, _⟩ => ⟨S2048x512, .f32⟩
  | .local _ .vmem, ⟨1, _⟩ => ⟨S2048x512, .f32⟩
  | .local _ .vmem, ⟨2, _⟩ => ⟨S512x192, .f32⟩
  | .local _ .vmem, ⟨3, _⟩ => ⟨S2048x64, .bf16⟩
  | .local _ .vmem, ⟨4, _⟩ => ⟨S2048x64, .bf16⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x512x64, .f32⟩
  | .local _ .vmem, ⟨16, _⟩ => ⟨S1x512x64, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S512x64 : S_.BroadcastsInDim S512x64 (![] : Fin 0 → Fin S512x64.rank)
  concatenates_S512x64_S512x64_S512x64_S512x192_d1 : Shape.Concatenates [S512x64, S512x64, S512x64] S512x192 1
  shapeCasts_S8x2048x512_S16384x512 : S8x2048x512.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x192_S512x192_0_0 : ∀ a, (![0, 0] : Fin 2 → Nat) a + S512x192.size a ≤ S512x192.size a
  h_S512x192 : 0 < S512x192.numel
  shapeCasts_S512x192_S512x192 : S512x192.ShapeCasts S512x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  slices_S2048x192_o0_64_S2048x64 : S2048x192.Slices ![0, 64] S2048x64
  slices_S2048x192_o0_128_S2048x64 : S2048x192.Slices ![0, 128] S2048x64
  shapeCasts_S16384x64_S8x2048x64 : S16384x64.ShapeCasts S8x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S2048x512_S512x192_S2048x192_1_0_0_1_n_n_wf : DotDims.WF S2048x512 S512x192 S2048x192 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x192.size a ≤ S512x192.size a
  hwx0_1 : ∀ i : grid0.Coords, EltTy.bits .f32 = 32 ∨ (Rect.block (s := S512x192) S512x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .bf16 = 32 ∨ (Rect.block (s := S16384x64) S2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .bf16 = 32 ∨ (Rect.block (s := S16384x64) S2048x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .bf16 = 32 ∨ (Rect.block (s := S8x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .bf16 = 32 ∨ (Rect.block (s := S8x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S2048x512_S512x192_S2048x192_1_0_0_1_n_n : DotDims S2048x512 S512x192 S2048x192 where
  lhsContracting := [1]
  rhsContracting := [0]
  lhsNonContracting := [0]
  rhsNonContracting := [1]
  lhsBatch := []
  rhsBatch := []
  wf := dot_S2048x512_S512x192_S2048x192_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v3) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S512x64 : Shape := ⟨2, ![512, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x64, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x64_S8x2048x64_2_0_01_1_n_n_wf : DotDims.WF S8x2048x512 S512x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x512_S512x64_S8x2048x64_2_0_01_1_n_n : DotDims S8x2048x512 S512x64 S8x2048x64 where
  lhsContracting := [2]
  rhsContracting := [0]
  lhsNonContracting := [0, 1]
  rhsNonContracting := [1]
  lhsBatch := []
  rhsBatch := []
  wf := dot_S8x2048x512_S512x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KbProjFrame.lean ====
/-
  The projection region (the first pallas_call: [q | k | v] = x2d · [Wq/8 | Wk | Wv], grid of 8 row blocks), at the
  buffer contents V that the region is entered with.

  At grid point t the body reads rows 2048·t … 2048·t + 2047 of the [16384, 512] input (window 0) and the whole
  [512, 192] weight slab (window 1, fetched once and revisited), multiplies them, and stores columns 0–63, 64–127 and
  128–191 of the [2048, 192] product into the blocks of the three [16384, 64] outputs (windows 2, 3, 4). Each output
  block is stored whole by one store, so what a staging buffer holds after the body is that store's value; the
  loads of the output buffers the body also makes are of values it never uses, so they may hold anything on entry.
  Nothing is carried from point to point, no semaphore or scratch is named, and the body obligation is the body's
  triple at the point's input blocks.
-/
import proofs.«411043_j23192823399108_3_alg».proof.Proof.Gen.Kernel.Launch
import proofs.«411043_j23192823399108_3_alg».proof.Proof.Gen.Kernel.Skeleton
import proofs.«411043_j23192823399108_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input sits in window 0's current staging buffer at every point. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The weight slab sits in window 1's staging buffer at every point: fetched at the first, its block index never
    moves afterwards. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-! ## The body's accesses: each the whole of its buffer -/

abbrev rowsRect : Rect S2048x512 := Rect.unit (s := S2048x512) ![0, 0] S2048x512.size inb_S2048x512_S2048x512_0_0
abbrev slabRect : Rect S512x192 := Rect.unit (s := S512x192) ![0, 0] S512x192.size inb_S512x192_S512x192_0_0
abbrev outRect : Rect S2048x64 := Rect.unit (s := S2048x64) ![0, 0] S2048x64.size inb_S2048x64_S2048x64_0_0

/-! ## What the body leaves in each output buffer: its one store -/

/-- Columns 0–63 of the product (the scaled query projection). -/
def projOutQ (x0 : Vec F S2048x512 .f32) (x1 : Vec F S512x192 .f32) : Vec F S2048x64 .bf16 :=
  View.canon [⟨outRect, k0_pay2 (View.ld x0 rowsRect) (View.ld x1 slabRect)⟩]
/-- Columns 64–127 (the key projection). -/
def projOutK (x0 : Vec F S2048x512 .f32) (x1 : Vec F S512x192 .f32) : Vec F S2048x64 .bf16 :=
  View.canon [⟨outRect, k0_pay3 (View.ld x0 rowsRect) (View.ld x1 slabRect)⟩]
/-- Columns 128–191 (the value projection). -/
def projOutV (x0 : Vec F S2048x512 .f32) (x1 : Vec F S512x192 .f32) : Vec F S2048x64 .bf16 :=
  View.canon [⟨outRect, k0_pay4 (View.ld x0 rowsRect) (View.ld x1 slabRect)⟩]

/-- One store through the whole-buffer rectangle covers the buffer. -/
theorem outRect_cover (p0 : Vec F S2048x64 .bf16) (y : S2048x64.Idx) :
    ∃ pc ∈ ([⟨outRect, p0⟩] : List (View.Piece (Elt F) S2048x64 .bf16)), y ∈ pc.1.set :=
  View.cover_of_tiled [⟨outRect, p0⟩] S2048x64.size (by rfl) y

/-! ## The body's triple -/

set_option maxHeartbeats 1000000 in
/-- On whole staging memrefs, the inputs' at contents x0 and x1 and the outputs' at anything, the body runs to the
    continuation holding the inputs' as they were and each output's at its store's value. -/
theorem proj_kernel_sound (c : Dev nD) (E : Set ℕ) (i : grid0.Coords)
    (arg1 : Memref sig .tc .vmem S2048x512 .f32) (harg1 : arg1.IsWhole) (arg2 : Memref sig .tc .vmem S512x192 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x64 .bf16) (harg5 : arg5.IsWhole)
    (x0 : Vec F S2048x512 .f32) (x1 : Vec F S512x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (projOutQ x0 x1) ∗ owns (c : Thread nD τ) arg4 fullShare (projOutK x0 x1)
            ∗ owns (c : Thread nD τ) arg5 fullShare (projOutV x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (outRect_cover _)
  isplitl [H3]
  · iexists _; isplitr
    swap; · iexact H3
    ipureintro
    exact View.read_writes_eq_canon _ _ _ (outRect_cover _)
  iexists _; isplitr
  swap; · iexact H4
  ipureintro
  exact View.read_writes_eq_canon _ _ _ (outRect_cover _)

/-! ## The pipeline's proof data -/

/-- The region's proof data on core c: the arrays as the region finds them; after the body at point t each input's
    buffer at its block and each output's at its store of the input blocks; the invariant the untouched scoped rest
    and generator register; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOutQ (projBlk V c 0 t) (projBlk V c 1 t)
    | ⟨3, _⟩ => projOutK (projBlk V c 0 t) (projBlk V c 1 t)
    | ⟨4, _⟩ => projOutV (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projOutQ (projBlk V c 0 t) (projBlk V c 1 t) := by dsimp only [projDat]
theorem projAfter3 (c : Dev nD) (t : Fin cfg0.N) : (projDat V c).after 3 t = projOutK (projBlk V c 0 t) (projBlk V c 1 t) := by dsimp only [projDat]
theorem projAfter4 (c : Dev nD) (t : Fin cfg0.N) : (projDat V c).after 4 t = projOutV (projBlk V c 0 t) (projBlk V c 1 t) := by dsimp only [projDat]

theorem projBefore0 (c : Dev nD) (t : Fin cfg0.N) (d) : (projDat V c).before 0 t d = projBlk V c 0 t :=
  projBefore0_of V (projDat V c) (projDat_A V c 0) (projAfter0 V c) t d
theorem projBefore1 (c : Dev nD) (t : Fin cfg0.N) (d) : (projDat V c).before 1 t d = projBlk V c 1 t :=
  projBefore1_of V (projDat V c) (projDat_A V c 1) (projAfter1 V c) t d

/-! ## The body obligation, at a generic point -/

/-- What the body is called with at point t, the windows one by one, -/
def projBodyPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d))
    ∗ (∃ d, owns (c : Thread nD τ) (st0_4 t) fullShare ((projDat V c).before 4 t d)))

/-- and what it returns. -/
def projBodyPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t)
    ∗ owns (c : Thread nD τ) (st0_4 t) fullShare ((projDat V c).after 4 t))

/-- The body at any point: the inputs' memrefs hold their blocks, so the body's triple applies; the invariant and the
    core's dues pass through unread. -/
theorem proj_body_sound (c : Dev nD) (t : Fin cfg0.N) :
    projBodyPre V c t ⊢ wp frame (wpE (defs₀ (F := F)) Variants.none c none) Set.univ (bodyAt0 t) (fun _ => projBodyPost V c t) := by
  unfold projBodyPre projBodyPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2, projAfter3, projAfter4]
  iintro ⟨HΦ, Ho, ⟨%d0, H0⟩, ⟨%d1, H1⟩, ⟨%d2, H2⟩, ⟨%d3, H3⟩, ⟨%d4, H4⟩⟩
  iapply (proj_kernel_sound c Set.univ _ _ _ _ _ _ _ _ _ _ _ (projBlk V c 0 t) (projBlk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem proj_body_obligation (c : Dev nD) : BodyObligation (projDat (F := F) V c) (defs₀ (F := F)) Variants.none () Set.univ := fun t => by
  rw [bigSep_W0, bigSep_W0]
  exact proj_body_sound V c t

end Cert.Kernel.Frame

end
-- ==== Proof.KbAttnFrame.lean ====
/-
  The attention region (the second pallas_call, grid 8 × 4: batch b, query tile of 512 rows), at the buffer contents V
  that the region is entered with.

  At grid point (b, qi) the body reads the [1, 512, 64] query tile (window 0) and the whole [1, 2048, 64] key and value
  slabs of batch b (windows 1 and 2, fetched when b changes and revisited for the other query tiles), forms the scores,
  their row maxima, the shifted exponentials and their row sums, contracts the exponentials with the values, divides by
  the row sums, and stores the [1, 512, 64] result tile whole (window 3). What the output's staging buffer holds after
  the body is that one store's value; the load of the output buffer the body also makes is of a value it never uses.
  Nothing is carried from point to point and no semaphore or scratch is named.
-/
import proofs.«411043_j23192823399108_3_alg».proof.Proof.Gen.Kernel.Launch
import proofs.«411043_j23192823399108_3_alg».proof.Proof.Gen.Kernel.Skeleton
import proofs.«411043_j23192823399108_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile sits in window 0's current staging buffer at every point. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- The key slab of the point's batch sits in window 1's current staging buffer at every point: fetched when the batch
    changes, its block index does not move in between. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- The value slab likewise, in window 2's. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-! ## The body's accesses: each the whole of its buffer -/

abbrev tileRect : Rect S1x512x64 := Rect.unit (s := S1x512x64) ![0, 0, 0] S1x512x64.size inb_S1x512x64_S1x512x64_0_0_0
abbrev kvRect : Rect S1x2048x64 := Rect.unit (s := S1x2048x64) ![0, 0, 0] S1x2048x64.size inb_S1x2048x64_S1x2048x64_0_0_0

/-! ## What the body leaves in the output buffer: its one store -/

/-- The attention of the query tile against the batch's keys and values. -/
def attnOut (x0 : Vec F S1x512x64 .bf16) (x1 : Vec F S1x2048x64 .bf16) (x2 : Vec F S1x2048x64 .bf16) : Vec F S1x512x64 .f32 :=
  View.canon [⟨tileRect, k1_pay1 (View.ld x0 tileRect) (View.ld x1 kvRect) (View.ld x2 kvRect)⟩]

/-- One store through the whole-buffer rectangle covers the buffer. -/
theorem tileRect_cover (p0 : Vec F S1x512x64 .f32) (y : S1x512x64.Idx) :
    ∃ pc ∈ ([⟨tileRect, p0⟩] : List (View.Piece (Elt F) S1x512x64 .f32)), y ∈ pc.1.set :=
  View.cover_of_tiled [⟨tileRect, p0⟩] S1x512x64.size (by rfl) y

/-! ## The body's triple -/

set_option maxHeartbeats 1000000 in
/-- On whole staging memrefs, the inputs' at contents x0, x1, x2 and the output's at anything, the body runs to the
    continuation holding the inputs' as they were and the output's at its store's value. -/
theorem attn_kernel_sound (c : Dev nD) (E : Set ℕ) (i : grid1.Coords)
    (arg2 : Memref sig .tc .vmem S1x512x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x512x64 .f32) (harg5 : arg5.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileRect_cover _)

/-! ## The pipeline's proof data -/

/-- The region's proof data on core c: the arrays as the region finds them; after the body at point t each input's
    buffer at its block and the output's at its store of the input blocks; the invariant the untouched scoped rest and
    generator register; nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q _ := fullShare
  owed _ := 0

theorem attnDat_A (c : Dev nD) (w : Fin cfg1.W) : (attnDat V c).A w = V c (Pipeline.arrRef spec1 w) := by
  dsimp only [attnDat]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) :
    (attnDat V c).after 3 t = attnOut (attnBlk V c 0 t) (attnBlk V c 1 t) (attnBlk V c 2 t) := by dsimp only [attnDat]

theorem attnBefore0 (c : Dev nD) (t : Fin cfg1.N) (d) : (attnDat V c).before 0 t d = attnBlk V c 0 t :=
  attnBefore0_of V (attnDat V c) (attnDat_A V c 0) (attnAfter0 V c) t d
theorem attnBefore1 (c : Dev nD) (t : Fin cfg1.N) (d) : (attnDat V c).before 1 t d = attnBlk V c 1 t :=
  attnBefore1_of V (attnDat V c) (attnDat_A V c 1) (attnAfter1 V c) t d
theorem attnBefore2 (c : Dev nD) (t : Fin cfg1.N) (d) : (attnDat V c).before 2 t d = attnBlk V c 2 t :=
  attnBefore2_of V (attnDat V c) (attnDat_A V c 2) (attnAfter2 V c) t d

/-! ## The body obligation, at a generic point -/

/-- What the body is called with at point t, the windows one by one, -/
def attnBodyPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnBodyPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so the body's triple applies; the invariant and the
    core's dues pass through unread. -/
theorem attn_body_sound (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnBefore0, attnBefore1, attnBefore2]
  rw [show (attnDat V c).Φ t.succ = (attnDat V c).Φ t.castSucc from rfl,
    show (attnDat V c).owesAt () t.succ = (attnDat V c).owesAt () t.castSucc from rfl,
    attnAfter0, attnAfter1, attnAfter2, attnAfter3]
  iintro ⟨HΦ, Ho, ⟨%d0, H0⟩, ⟨%d1, H1⟩, ⟨%d2, H2⟩, ⟨%d3, H3⟩⟩
  iapply (attn_kernel_sound c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem attn_body_obligation (c : Dev nD) : BodyObligation (attnDat (F := F) V c) (defs₀ (F := F)) Variants.none () Set.univ := fun t => by
  rw [bigSep_W1, bigSep_W1]
  exact attn_body_sound V c t

end Cert.Kernel.Frame

end
-- ==== Proof.KbRun.lean ====
/-
  The whole run of the kernel program: host operations (the 1/8 constant broadcast and multiplied into Wq, the three
  weight matrices concatenated into a [512, 192] slab, the input reshaped to [16384, 512]), the projection region, three
  reshapes of its outputs to [8, 2048, 64], the attention region.

  The buffer contents at each boundary are a fold from the launch memory: a stretch of host operations applies them in
  order; a region leaves in each of its windows' arrays what its write-backs put there (an input's array as entered) and
  every other buffer as entered. Each region is a segment over the thread state "every unscoped buffer at the
  boundary's contents, the generator register at some state, nothing owed"; the launch theorem for a list of segments
  then says every weakly fair execution terminates with every unscoped buffer at the last boundary's contents. Read at
  the four argument arrays that gives the frame (no operation or region writes an argument); read at the result array it
  names the result as what the attention region's write-backs leave.
-/
import proofs.«411043_j23192823399108_3_alg».proof.Proof.KbProjFrame
import proofs.«411043_j23192823399108_3_alg».proof.Proof.KbAttnFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev memLaunch : Dev nD → Valuation τ sig (Elt F) := fun c b => m (c, b)
/-- After the first host stretch: the projection region's entry. -/
abbrev memProjIn : Dev nD → Valuation τ sig (Elt F) := fun c => StableHlo.after hostOps0 (memLaunch m c)
/-- The same read at the TensorCore's references. -/
abbrev refsProjIn : (c : Dev nD) → (b : Ref sig .tc) → Buf (Elt F) ((c : Thread nD τ).loc b) := fun c b => memProjIn m c b
/-- At the projection region's exit: its arrays at what the pipeline leaves, every other buffer as entered. -/
def memProjOut (c : Dev nD) : Valuation τ sig (Elt F) :=
  Pipeline.withArrays spec0 c (memProjIn m c) fun w => (projDat (refsProjIn m) c).arrAt w cfg0.N
theorem memProjOut_arr (c : Dev nD) (w : Fin cfg0.W) :
    memProjOut m c (Proc.devRef .tc (Pipeline.arrRef spec0 w)) = (projDat (refsProjIn m) c).arrAt w cfg0.N := by
  unfold memProjOut; exact Pipeline.withArrays_arr spec0 launch0.win.arr_inj c _ _ w
theorem memProjOut_of_ne (c : Dev nD) (b : Ref sig .tc) (hb : ∀ w, Pipeline.arrRef spec0 w ≠ b) :
    memProjOut m c (Proc.devRef .tc b) = memProjIn m c (Proc.devRef .tc b) := by
  unfold memProjOut; exact Pipeline.withArrays_of_ne spec0 c _ _ b hb
abbrev refsProjOut : (c : Dev nD) → (b : Ref sig .tc) → Buf (Elt F) ((c : Thread nD τ).loc b) := fun c b => memProjOut m c b
theorem projExit_arr (c : Dev nD) (w : Fin cfg0.W) : (projDat (refsProjIn m) c).arrAt w cfg0.N = refsProjOut m c (Pipeline.arrRef spec0 w) :=
  (memProjOut_arr m c w).symm
theorem projExit_rest (c : Dev nD) : ∀ b, b ∉ Finset.univ.image (Pipeline.arrRef spec0) → refsProjOut m c b = refsProjIn m c b :=
  fun b hb => memProjOut_of_ne m c b fun w e => hb (Finset.mem_image.mpr ⟨w, Finset.mem_univ _, e⟩)

/-- After the three reshapes: the attention region's entry. -/
abbrev memAttnIn : Dev nD → Valuation τ sig (Elt F) := fun c => StableHlo.after hostOps1 (memProjOut m c)
abbrev refsAttnIn : (c : Dev nD) → (b : Ref sig .tc) → Buf (Elt F) ((c : Thread nD τ).loc b) := fun c b => memAttnIn m c b
/-- At the attention region's exit. -/
def memAttnOut (c : Dev nD) : Valuation τ sig (Elt F) :=
  Pipeline.withArrays spec1 c (memAttnIn m c) fun w => (attnDat (refsAttnIn m) c).arrAt w cfg1.N
theorem memAttnOut_arr (c : Dev nD) (w : Fin cfg1.W) :
    memAttnOut m c (Proc.devRef .tc (Pipeline.arrRef spec1 w)) = (attnDat (refsAttnIn m) c).arrAt w cfg1.N := by
  unfold memAttnOut; exact Pipeline.withArrays_arr spec1 launch1.win.arr_inj c _ _ w
theorem memAttnOut_of_ne (c : Dev nD) (b : Ref sig .tc) (hb : ∀ w, Pipeline.arrRef spec1 w ≠ b) :
    memAttnOut m c (Proc.devRef .tc b) = memAttnIn m c (Proc.devRef .tc b) := by
  unfold memAttnOut; exact Pipeline.withArrays_of_ne spec1 c _ _ b hb
abbrev refsAttnOut : (c : Dev nD) → (b : Ref sig .tc) → Buf (Elt F) ((c : Thread nD τ).loc b) := fun c b => memAttnOut m c b
theorem attnExit_arr (c : Dev nD) (w : Fin cfg1.W) : (attnDat (refsAttnIn m) c).arrAt w cfg1.N = refsAttnOut m c (Pipeline.arrRef spec1 w) :=
  (memAttnOut_arr m c w).symm
theorem attnExit_rest (c : Dev nD) : ∀ b, b ∉ Finset.univ.image (Pipeline.arrRef spec1) → refsAttnOut m c b = refsAttnIn m c b :=
  fun b hb => memAttnOut_of_ne m c b fun w e => hb (Finset.mem_image.mpr ⟨w, Finset.mem_univ _, e⟩)

/-! ## No operation and no region writes an argument -/

/-- A host stretch leaves a buffer none of its operations writes. -/
theorem hostOps0_keeps (W : Valuation τ sig (Elt F)) (b : Ref sig .tc)
    (hb : b ∉ ([main_cst, main_v0, main_v1, main_v2, main_v3] : List (Ref sig .tc))) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.nary_writes,
      StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))
theorem hostOps1_keeps (W : Valuation τ sig (Elt F)) (b : Ref sig .tc)
    (hb : b ∉ ([main_v5, main_v6, main_v7] : List (Ref sig .tc))) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2⟩))

/-- An argument array (or any buffer that is no window's array of either region and that no host operation writes)
    ends as launched. -/
theorem memAttnOut_untouched (c : Dev nD) (b : Ref sig .tc)
    (h1 : ∀ w, Pipeline.arrRef spec1 w ≠ b) (h0 : ∀ w, Pipeline.arrRef spec0 w ≠ b)
    (hb1 : b ∉ ([main_v5, main_v6, main_v7] : List (Ref sig .tc)))
    (hb0 : b ∉ ([main_cst, main_v0, main_v1, main_v2, main_v3] : List (Ref sig .tc))) :
    memAttnOut m c (Proc.devRef .tc b) = m ((c : Thread nD τ).loc b) :=
  calc memAttnOut m c (Proc.devRef .tc b)
    _ = memAttnIn m c (Proc.devRef .tc b) := memAttnOut_of_ne m c b h1
    _ = memProjOut m c (Proc.devRef .tc b) := hostOps1_keeps _ b hb1
    _ = memProjIn m c (Proc.devRef .tc b) := memProjOut_of_ne m c b h0
    _ = memLaunch m c (Proc.devRef .tc b) := hostOps0_keeps _ b hb0
    _ = m ((c : Thread nD τ).loc b) := rfl

theorem memAttnOut_arg0 (c : Dev nD) : memAttnOut m c (Proc.devRef .tc main_arg0) = m ((c : Thread nD τ).loc main_arg0) :=
  memAttnOut_untouched m c main_arg0 (by decide) (by decide) (by decide) (by decide)
theorem memAttnOut_arg1 (c : Dev nD) : memAttnOut m c (Proc.devRef .tc main_arg1) = m ((c : Thread nD τ).loc main_arg1) :=
  memAttnOut_untouched m c main_arg1 (by decide) (by decide) (by decide) (by decide)
theorem memAttnOut_arg2 (c : Dev nD) : memAttnOut m c (Proc.devRef .tc main_arg2) = m ((c : Thread nD τ).loc main_arg2) :=
  memAttnOut_untouched m c main_arg2 (by decide) (by decide) (by decide) (by decide)
theorem memAttnOut_arg3 (c : Dev nD) : memAttnOut m c (Proc.devRef .tc main_arg3) = m ((c : Thread nD τ).loc main_arg3) :=
  memAttnOut_untouched m c main_arg3 (by decide) (by decide) (by decide) (by decide)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => projDat (refsProjIn m) c
  | ⟨1, _⟩ => fun c => attnDat (refsAttnIn m) c
abbrev 𝒱₀ : Variants := Variants.none
/-- No core owes another anything: no level is assigned. -/
abbrev noLevels : GSem nD τ sig → Finset Unit := fun _ => ∅
abbrev lvZero : GSem nD τ sig → Unit → ℕ := fun _ _ => 0
/-- What rides beside the buffers through every segment: the generator register at some state and the core's dues,
    at nothing. -/
abbrev riding (c : Dev nD) : sProp 𝕄 := iprop((∃ r, prngReg c r) ∗ ∃ W, owes (c : Thread nD τ) (0 : CellTallies nD τ sig Unit) W)
/-- A host stretch as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noLevels lvZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem hostOps0_noAlloc : (hostOps0 : List (HloOp τ sig (Elt F))).Forall fun op => op.fresh = ∅ := by
  simp only [List.Forall]; repeat' constructor
theorem hostOps1_noAlloc : (hostOps1 : List (HloOp τ sig (Elt F))).Forall fun op => op.fresh = ∅ := by
  simp only [List.Forall]; repeat' constructor
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev lastState (c : Dev nD) : sProp 𝕄 := iprop(StableHlo.held (c : Thread nD τ) (Pipeline.ucRefs τ sig) (memAttnOut m c) ∗ ∃ r, prngReg c r)

/-! ## The regions as segments -/

set_option backward.isDefEq.respectTransparency.types false in
/-- The projection region over the thread state: entered from every unscoped buffer at its entry contents, left at its
    exit contents. Its arrays are split out of the unscoped buffers and put back; the generator register goes into the
    region's invariant and out; nothing is owed; the kernel has no semaphore of its own. -/
def projSeg : Pipeline.RegionSeg (pcfgs (F := F)) adm (pdats m) () defs₀ 𝒱₀ noLevels lvZero 0 where
  win := launch0.win.to₀
  block_pos := launch0.block_pos
  stage_whole := launch0.stage_whole
  K := PEmpty
  osem k := k.elim
  ho := Pipeline.OwnSemFacts.none _
  hbody c := (proj_body_obligation (refsProjIn m) c).loose
  hwaits := Pipeline.hwaits_of_owed_zero _ _ _ _ noLevels lvZero 0 fun _ _ => rfl
  pre c := iprop(StableHlo.held (c : Thread nD τ) (Pipeline.ucRefs τ sig) (memProjIn m c) ∗ riding c)
  post c := iprop(StableHlo.held (c : Thread nD τ) (Pipeline.ucRefs τ sig) (memProjOut m c) ∗ riding c)
  X c := iprop(∃ r, prngReg c r)
  Y c := iprop(∃ r, prngReg c r)
  Z c := Pipeline.unscopedRest (Ix := Unit) (Name := ℕ) (U := UR sig nD τ) (Lvl := ℕ) spec0 c (refsProjIn m c)
  hentry c := by
    rw [Pipeline.ownSems0_none]
    have hsplit := Pipeline.arrays_of_unscopedBufs (p := 0) (pcfgs (F := F)) adm (pdats m) launch0.win launch0.arr_whole c
      ((pdats m 0 c).share_full fun _ => rfl) (refsProjIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (refsProjIn m c) (refsProjOut m c) ((pdats m 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state, likewise; it is left at what the launch reads at the end. -/
def attnSeg : Pipeline.RegionSeg (pcfgs (F := F)) adm (pdats m) () defs₀ 𝒱₀ noLevels lvZero 1 where
  win := launch1.win.to₀
  block_pos := launch1.block_pos
  stage_whole := launch1.stage_whole
  K := PEmpty
  osem k := k.elim
  ho := Pipeline.OwnSemFacts.none _
  hbody c := (attn_body_obligation (refsAttnIn m) c).loose
  hwaits := Pipeline.hwaits_of_owed_zero _ _ _ _ noLevels lvZero 1 fun _ _ => rfl
  pre c := iprop(StableHlo.held (c : Thread nD τ) (Pipeline.ucRefs τ sig) (memAttnIn m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (refsAttnIn m c)
  hentry c := by
    rw [Pipeline.ownSems0_none]
    have hsplit := Pipeline.arrays_of_unscopedBufs (p := 1) (pcfgs (F := F)) adm (pdats m) launch1.win launch1.arr_whole c
      ((pdats m 1 c).share_full fun _ => rfl) (refsAttnIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (refsAttnIn m c) (refsAttnOut m c) ((pdats m 1 c).arrAt · cfg1.N) (attnExit_arr m c) (attnExit_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ noLevels lvZero) :=
  [ .host (hostSeg hostOps0 hostOps0_sub hostOps0_noAlloc (memLaunch m)),
    .region (projSeg m),
    .host (hostSeg hostOps1 hostOps1_sub hostOps1_noAlloc (memProjOut m)),
    .region (attnSeg m) ]

theorem main_is_segs (c : Dev nD) : main (F := F) c = Pipeline.Seg.run (segs m) := (main_chain c).trans (by chain_rfl)

set_option backward.isDefEq.respectTransparency.types false in
/-- Every weakly fair execution of the program from memory m with zero counters terminates, nothing faulting, with every
    unscoped buffer of every core at the last boundary's contents. -/
theorem run_to_last (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = memAttnOut m c b) :=
  Pipeline.θ_run_regions_kit (pcfgs (F := F)) adm (pdats m) () cellOf_inj emb₁ defs₀ 𝒱₀ noLevels lvZero m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ riding c)) (Tₙ := lastState m)
    (hch := ⟨fun _ => .rfl, fun _ => .rfl, fun _ => .rfl, fun _ => .rfl, fun _ => .rfl⟩)
    (hinit := by
      refine Pipeline.initEach noLevels lvZero fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memAttnOut m c b)
    (hfin := fun c s' => by
      iintro ⟨⟨Hh, -⟩, HSI⟩
      unfold StableHlo.held
      imodintro
      iapply (pointsTo_read_all (Pipeline.ucRefs τ sig) (fun b => (((c : Thread nD τ)).1, b)) (memAttnOut m c) s')
      isplitl [Hh] <;> iassumption)
    (hQ := fun s h c => h c)

/-- The frame and the result in one statement: the result array ends at what the attention region's write-backs leave,
    the four argument arrays as launched. -/
theorem run_result (ρ : Dev nD → PrngReg) : θ_run defs (onTc (τ := τ) (main (F := F))) ⟨m, fun _ => 0, ρ⟩ (fun r => ∀ c : Dev nD,
      r.2.mem ((c.tc : Thread nD τ).loc main_v8) = (attnDat (refsAttnIn m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucRefs main_v8 (by decide))).trans (memAttnOut_arr m c 3),
     (h c _ (mem_ucRefs main_arg0 (by decide))).trans (memAttnOut_arg0 m c),
     (h c _ (mem_ucRefs main_arg1 (by decide))).trans (memAttnOut_arg1 m c),
     (h c _ (mem_ucRefs main_arg2 (by decide))).trans (memAttnOut_arg2 m c),
     (h c _ (mem_ucRefs main_arg3 (by decide))).trans (memAttnOut_arg3 m c)⟩) (run_to_last m ρ)

end Cert.Kernel.Frame

end
-- ==== Proof.KiProjFrame.lean ====
/-
  The projection region (the first pallas_call: [q | k | v] = x2d · [Wq/8 | Wk | Wv], grid of 8 row blocks), at the
  buffer contents V that the region is entered with.

  At grid point t the body reads rows 2048·t … 2048·t + 2047 of the [16384, 512] input (window 0) and the whole
  [512, 192] weight slab (window 1, fetched once and revisited), multiplies them, and stores columns 0–63, 64–127 and
  128–191 of the [2048, 192] product into the blocks of the three [16384, 64] outputs (windows 2, 3, 4). Each output
  block is stored whole by one store, so what a staging buffer holds after the body is that store's value; the
  loads of the output buffers the body also makes are of values it never uses, so they may hold anything on entry.
  Nothing is carried from point to point, no semaphore or scratch is named, and the body obligation is the body's
  triple at the point's input blocks.
-/
import proofs.«411043_j23192823399108_3_alg».proof.Proof.Gen.KernelIdeal.Launch
import proofs.«411043_j23192823399108_3_alg».proof.Proof.Gen.KernelIdeal.Skeleton
import proofs.«411043_j23192823399108_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input sits in window 0's current staging buffer at every point. -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- The weight slab sits in window 1's staging buffer at every point: fetched at the first, its block index never
    moves afterwards. -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-! ## The body's accesses: each the whole of its buffer -/

abbrev rowsRect : Rect S2048x512 := Rect.unit (s := S2048x512) ![0, 0] S2048x512.size inb_S2048x512_S2048x512_0_0
abbrev slabRect : Rect S512x192 := Rect.unit (s := S512x192) ![0, 0] S512x192.size inb_S512x192_S512x192_0_0
abbrev outRect : Rect S2048x64 := Rect.unit (s := S2048x64) ![0, 0] S2048x64.size inb_S2048x64_S2048x64_0_0

/-! ## What the body leaves in each output buffer: its one store -/

/-- Columns 0–63 of the product (the scaled query projection). -/
def projOutQ (x0 : Vec F S2048x512 .f32) (x1 : Vec F S512x192 .f32) : Vec F S2048x64 .bf16 :=
  View.canon [⟨outRect, k0_pay2 (View.ld x0 rowsRect) (View.ld x1 slabRect)⟩]
/-- Columns 64–127 (the key projection). -/
def projOutK (x0 : Vec F S2048x512 .f32) (x1 : Vec F S512x192 .f32) : Vec F S2048x64 .bf16 :=
  View.canon [⟨outRect, k0_pay3 (View.ld x0 rowsRect) (View.ld x1 slabRect)⟩]
/-- Columns 128–191 (the value projection). -/
def projOutV (x0 : Vec F S2048x512 .f32) (x1 : Vec F S512x192 .f32) : Vec F S2048x64 .bf16 :=
  View.canon [⟨outRect, k0_pay4 (View.ld x0 rowsRect) (View.ld x1 slabRect)⟩]

/-- One store through the whole-buffer rectangle covers the buffer. -/
theorem outRect_cover (p0 : Vec F S2048x64 .bf16) (y : S2048x64.Idx) :
    ∃ pc ∈ ([⟨outRect, p0⟩] : List (View.Piece (Elt F) S2048x64 .bf16)), y ∈ pc.1.set :=
  View.cover_of_tiled [⟨outRect, p0⟩] S2048x64.size (by rfl) y

/-! ## The body's triple -/

set_option maxHeartbeats 1000000 in
/-- On whole staging memrefs, the inputs' at contents x0 and x1 and the outputs' at anything, the body runs to the
    continuation holding the inputs' as they were and each output's at its store's value. -/
theorem proj_kernel_sound (c : Dev nD) (E : Set ℕ) (i : grid0.Coords)
    (arg1 : Memref sig .tc .vmem S2048x512 .f32) (harg1 : arg1.IsWhole) (arg2 : Memref sig .tc .vmem S512x192 .f32) (harg2 : arg2.IsWhole)
    (arg3 : Memref sig .tc .vmem S2048x64 .bf16) (harg3 : arg3.IsWhole) (arg4 : Memref sig .tc .vmem S2048x64 .bf16) (harg4 : arg4.IsWhole)
    (arg5 : Memref sig .tc .vmem S2048x64 .bf16) (harg5 : arg5.IsWhole)
    (x0 : Vec F S2048x512 .f32) (x1 : Vec F S512x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (projOutQ x0 x1) ∗ owns (c : Thread nD τ) arg4 fullShare (projOutK x0 x1)
            ∗ owns (c : Thread nD τ) arg5 fullShare (projOutV x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (outRect_cover _)
  isplitl [H3]
  · iexists _; isplitr
    swap; · iexact H3
    ipureintro
    exact View.read_writes_eq_canon _ _ _ (outRect_cover _)
  iexists _; isplitr
  swap; · iexact H4
  ipureintro
  exact View.read_writes_eq_canon _ _ _ (outRect_cover _)

/-! ## The pipeline's proof data -/

/-- The region's proof data on core c: the arrays as the region finds them; after the body at point t each input's
    buffer at its block and each output's at its store of the input blocks; the invariant the untouched scoped rest
    and generator register; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOutQ (projBlk V c 0 t) (projBlk V c 1 t)
    | ⟨3, _⟩ => projOutK (projBlk V c 0 t) (projBlk V c 1 t)
    | ⟨4, _⟩ => projOutV (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]

theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projOutQ (projBlk V c 0 t) (projBlk V c 1 t) := by dsimp only [projDat]
theorem projAfter3 (c : Dev nD) (t : Fin cfg0.N) : (projDat V c).after 3 t = projOutK (projBlk V c 0 t) (projBlk V c 1 t) := by dsimp only [projDat]
theorem projAfter4 (c : Dev nD) (t : Fin cfg0.N) : (projDat V c).after 4 t = projOutV (projBlk V c 0 t) (projBlk V c 1 t) := by dsimp only [projDat]

theorem projBefore0 (c : Dev nD) (t : Fin cfg0.N) (d) : (projDat V c).before 0 t d = projBlk V c 0 t :=
  projBefore0_of V (projDat V c) (projDat_A V c 0) (projAfter0 V c) t d
theorem projBefore1 (c : Dev nD) (t : Fin cfg0.N) (d) : (projDat V c).before 1 t d = projBlk V c 1 t :=
  projBefore1_of V (projDat V c) (projDat_A V c 1) (projAfter1 V c) t d

/-! ## The body obligation, at a generic point -/

/-- What the body is called with at point t, the windows one by one, -/
def projBodyPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d))
    ∗ (∃ d, owns (c : Thread nD τ) (st0_4 t) fullShare ((projDat V c).before 4 t d)))

/-- and what it returns. -/
def projBodyPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t)
    ∗ owns (c : Thread nD τ) (st0_4 t) fullShare ((projDat V c).after 4 t))

/-- The body at any point: the inputs' memrefs hold their blocks, so the body's triple applies; the invariant and the
    core's dues pass through unread. -/
theorem proj_body_sound (c : Dev nD) (t : Fin cfg0.N) :
    projBodyPre V c t ⊢ wp frame (wpE (defs₀ (F := F)) Variants.none c none) Set.univ (bodyAt0 t) (fun _ => projBodyPost V c t) := by
  unfold projBodyPre projBodyPost bodyAt0
  simp only [projBefore0, projBefore1]
  rw [show (projDat V c).Φ t.succ = (projDat V c).Φ t.castSucc from rfl,
    show (projDat V c).owesAt () t.succ = (projDat V c).owesAt () t.castSucc from rfl,
    projAfter0, projAfter1, projAfter2, projAfter3, projAfter4]
  iintro ⟨HΦ, Ho, ⟨%d0, H0⟩, ⟨%d1, H1⟩, ⟨%d2, H2⟩, ⟨%d3, H3⟩, ⟨%d4, H4⟩⟩
  iapply (proj_kernel_sound c Set.univ _ _ _ _ _ _ _ _ _ _ _ (projBlk V c 0 t) (projBlk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem proj_body_obligation (c : Dev nD) : BodyObligation (projDat (F := F) V c) (defs₀ (F := F)) Variants.none () Set.univ := fun t => by
  rw [bigSep_W0, bigSep_W0]
  exact proj_body_sound V c t

end Cert.KernelIdeal.Frame

end
-- ==== Proof.KiAttnFrame.lean ====
/-
  The attention region (the second pallas_call, grid 8 × 4: batch b, query tile of 512 rows), at the buffer contents V
  that the region is entered with.

  At grid point (b, qi) the body reads the [1, 512, 64] query tile (window 0) and the whole [1, 2048, 64] key and value
  slabs of batch b (windows 1 and 2, fetched when b changes and revisited for the other query tiles), forms the scores,
  their row maxima, the shifted exponentials and their row sums, contracts the exponentials with the values, divides by
  the row sums, and stores the [1, 512, 64] result tile whole (window 3). What the output's staging buffer holds after
  the body is that one store's value; the load of the output buffer the body also makes is of a value it never uses.
  Nothing is carried from point to point and no semaphore or scratch is named.
-/
import proofs.«411043_j23192823399108_3_alg».proof.Proof.Gen.KernelIdeal.Launch
import proofs.«411043_j23192823399108_3_alg».proof.Proof.Gen.KernelIdeal.Skeleton
import proofs.«411043_j23192823399108_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile sits in window 0's current staging buffer at every point. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- The key slab of the point's batch sits in window 1's current staging buffer at every point: fetched when the batch
    changes, its block index does not move in between. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- The value slab likewise, in window 2's. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-! ## The body's accesses: each the whole of its buffer -/

abbrev tileRect : Rect S1x512x64 := Rect.unit (s := S1x512x64) ![0, 0, 0] S1x512x64.size inb_S1x512x64_S1x512x64_0_0_0
abbrev kvRect : Rect S1x2048x64 := Rect.unit (s := S1x2048x64) ![0, 0, 0] S1x2048x64.size inb_S1x2048x64_S1x2048x64_0_0_0

/-! ## What the body leaves in the output buffer: its one store -/

/-- The attention of the query tile against the batch's keys and values. -/
def attnOut (x0 : Vec F S1x512x64 .bf16) (x1 : Vec F S1x2048x64 .bf16) (x2 : Vec F S1x2048x64 .bf16) : Vec F S1x512x64 .f32 :=
  View.canon [⟨tileRect, k1_pay1 (View.ld x0 tileRect) (View.ld x1 kvRect) (View.ld x2 kvRect)⟩]

/-- One store through the whole-buffer rectangle covers the buffer. -/
theorem tileRect_cover (p0 : Vec F S1x512x64 .f32) (y : S1x512x64.Idx) :
    ∃ pc ∈ ([⟨tileRect, p0⟩] : List (View.Piece (Elt F) S1x512x64 .f32)), y ∈ pc.1.set :=
  View.cover_of_tiled [⟨tileRect, p0⟩] S1x512x64.size (by rfl) y

/-! ## The body's triple -/

set_option maxHeartbeats 1000000 in
/-- On whole staging memrefs, the inputs' at contents x0, x1, x2 and the output's at anything, the body runs to the
    continuation holding the inputs' as they were and the output's at its store's value. -/
theorem attn_kernel_sound (c : Dev nD) (E : Set ℕ) (i : grid1.Coords)
    (arg2 : Memref sig .tc .vmem S1x512x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x512x64 .f32) (harg5 : arg5.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileRect_cover _)

/-! ## The pipeline's proof data -/

/-- The region's proof data on core c: the arrays as the region finds them; after the body at point t each input's
    buffer at its block and the output's at its store of the input blocks; the invariant the untouched scoped rest and
    generator register; nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q _ := fullShare
  owed _ := 0

theorem attnDat_A (c : Dev nD) (w : Fin cfg1.W) : (attnDat V c).A w = V c (Pipeline.arrRef spec1 w) := by
  dsimp only [attnDat]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) :
    (attnDat V c).after 3 t = attnOut (attnBlk V c 0 t) (attnBlk V c 1 t) (attnBlk V c 2 t) := by dsimp only [attnDat]

theorem attnBefore0 (c : Dev nD) (t : Fin cfg1.N) (d) : (attnDat V c).before 0 t d = attnBlk V c 0 t :=
  attnBefore0_of V (attnDat V c) (attnDat_A V c 0) (attnAfter0 V c) t d
theorem attnBefore1 (c : Dev nD) (t : Fin cfg1.N) (d) : (attnDat V c).before 1 t d = attnBlk V c 1 t :=
  attnBefore1_of V (attnDat V c) (attnDat_A V c 1) (attnAfter1 V c) t d
theorem attnBefore2 (c : Dev nD) (t : Fin cfg1.N) (d) : (attnDat V c).before 2 t d = attnBlk V c 2 t :=
  attnBefore2_of V (attnDat V c) (attnDat_A V c 2) (attnAfter2 V c) t d

/-! ## The body obligation, at a generic point -/

/-- What the body is called with at point t, the windows one by one, -/
def attnBodyPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnBodyPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' memrefs hold their blocks, so the body's triple applies; the invariant and the
    core's dues pass through unread. -/
theorem attn_body_sound (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnBefore0, attnBefore1, attnBefore2]
  rw [show (attnDat V c).Φ t.succ = (attnDat V c).Φ t.castSucc from rfl,
    show (attnDat V c).owesAt () t.succ = (attnDat V c).owesAt () t.castSucc from rfl,
    attnAfter0, attnAfter1, attnAfter2, attnAfter3]
  iintro ⟨HΦ, Ho, ⟨%d0, H0⟩, ⟨%d1, H1⟩, ⟨%d2, H2⟩, ⟨%d3, H3⟩⟩
  iapply (attn_kernel_sound c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem attn_body_obligation (c : Dev nD) : BodyObligation (attnDat (F := F) V c) (defs₀ (F := F)) Variants.none () Set.univ := fun t => by
  rw [bigSep_W1, bigSep_W1]
  exact attn_body_sound V c t

end Cert.KernelIdeal.Frame

end
-- ==== Proof.KiRun.lean ====
/-
  The whole run of the kernel program: host operations (the 1/8 constant broadcast and multiplied into Wq, the three
  weight matrices concatenated into a [512, 192] slab, the input reshaped to [16384, 512]), the projection region, three
  reshapes of its outputs to [8, 2048, 64], the attention region.

  The buffer contents at each boundary are a fold from the launch memory: a stretch of host operations applies them in
  order; a region leaves in each of its windows' arrays what its write-backs put there (an input's array as entered) and
  every other buffer as entered. Each region is a segment over the thread state "every unscoped buffer at the
  boundary's contents, the generator register at some state, nothing owed"; the launch theorem for a list of segments
  then says every weakly fair execution terminates with every unscoped buffer at the last boundary's contents. Read at
  the four argument arrays that gives the frame (no operation or region writes an argument); read at the result array it
  names the result as what the attention region's write-backs leave.
-/
import proofs.«411043_j23192823399108_3_alg».proof.Proof.KiProjFrame
import proofs.«411043_j23192823399108_3_alg».proof.Proof.KiAttnFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev memLaunch : Dev nD → Valuation τ sig (Elt F) := fun c b => m (c, b)
/-- After the first host stretch: the projection region's entry. -/
abbrev memProjIn : Dev nD → Valuation τ sig (Elt F) := fun c => StableHlo.after hostOps0 (memLaunch m c)
/-- The same read at the TensorCore's references. -/
abbrev refsProjIn : (c : Dev nD) → (b : Ref sig .tc) → Buf (Elt F) ((c : Thread nD τ).loc b) := fun c b => memProjIn m c b
/-- At the projection region's exit: its arrays at what the pipeline leaves, every other buffer as entered. -/
def memProjOut (c : Dev nD) : Valuation τ sig (Elt F) :=
  Pipeline.withArrays spec0 c (memProjIn m c) fun w => (projDat (refsProjIn m) c).arrAt w cfg0.N
theorem memProjOut_arr (c : Dev nD) (w : Fin cfg0.W) :
    memProjOut m c (Proc.devRef .tc (Pipeline.arrRef spec0 w)) = (projDat (refsProjIn m) c).arrAt w cfg0.N := by
  unfold memProjOut; exact Pipeline.withArrays_arr spec0 launch0.win.arr_inj c _ _ w
theorem memProjOut_of_ne (c : Dev nD) (b : Ref sig .tc) (hb : ∀ w, Pipeline.arrRef spec0 w ≠ b) :
    memProjOut m c (Proc.devRef .tc b) = memProjIn m c (Proc.devRef .tc b) := by
  unfold memProjOut; exact Pipeline.withArrays_of_ne spec0 c _ _ b hb
abbrev refsProjOut : (c : Dev nD) → (b : Ref sig .tc) → Buf (Elt F) ((c : Thread nD τ).loc b) := fun c b => memProjOut m c b
theorem projExit_arr (c : Dev nD) (w : Fin cfg0.W) : (projDat (refsProjIn m) c).arrAt w cfg0.N = refsProjOut m c (Pipeline.arrRef spec0 w) :=
  (memProjOut_arr m c w).symm
theorem projExit_rest (c : Dev nD) : ∀ b, b ∉ Finset.univ.image (Pipeline.arrRef spec0) → refsProjOut m c b = refsProjIn m c b :=
  fun b hb => memProjOut_of_ne m c b fun w e => hb (Finset.mem_image.mpr ⟨w, Finset.mem_univ _, e⟩)

/-- After the three reshapes: the attention region's entry. -/
abbrev memAttnIn : Dev nD → Valuation τ sig (Elt F) := fun c => StableHlo.after hostOps1 (memProjOut m c)
abbrev refsAttnIn : (c : Dev nD) → (b : Ref sig .tc) → Buf (Elt F) ((c : Thread nD τ).loc b) := fun c b => memAttnIn m c b
/-- At the attention region's exit. -/
def memAttnOut (c : Dev nD) : Valuation τ sig (Elt F) :=
  Pipeline.withArrays spec1 c (memAttnIn m c) fun w => (attnDat (refsAttnIn m) c).arrAt w cfg1.N
theorem memAttnOut_arr (c : Dev nD) (w : Fin cfg1.W) :
    memAttnOut m c (Proc.devRef .tc (Pipeline.arrRef spec1 w)) = (attnDat (refsAttnIn m) c).arrAt w cfg1.N := by
  unfold memAttnOut; exact Pipeline.withArrays_arr spec1 launch1.win.arr_inj c _ _ w
theorem memAttnOut_of_ne (c : Dev nD) (b : Ref sig .tc) (hb : ∀ w, Pipeline.arrRef spec1 w ≠ b) :
    memAttnOut m c (Proc.devRef .tc b) = memAttnIn m c (Proc.devRef .tc b) := by
  unfold memAttnOut; exact Pipeline.withArrays_of_ne spec1 c _ _ b hb
abbrev refsAttnOut : (c : Dev nD) → (b : Ref sig .tc) → Buf (Elt F) ((c : Thread nD τ).loc b) := fun c b => memAttnOut m c b
theorem attnExit_arr (c : Dev nD) (w : Fin cfg1.W) : (attnDat (refsAttnIn m) c).arrAt w cfg1.N = refsAttnOut m c (Pipeline.arrRef spec1 w) :=
  (memAttnOut_arr m c w).symm
theorem attnExit_rest (c : Dev nD) : ∀ b, b ∉ Finset.univ.image (Pipeline.arrRef spec1) → refsAttnOut m c b = refsAttnIn m c b :=
  fun b hb => memAttnOut_of_ne m c b fun w e => hb (Finset.mem_image.mpr ⟨w, Finset.mem_univ _, e⟩)

/-! ## No operation and no region writes an argument -/

/-- A host stretch leaves a buffer none of its operations writes. -/
theorem hostOps0_keeps (W : Valuation τ sig (Elt F)) (b : Ref sig .tc)
    (hb : b ∉ ([main_cst, main_v0, main_v1, main_v2, main_v3] : List (Ref sig .tc))) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.nary_writes,
      StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))
theorem hostOps1_keeps (W : Valuation τ sig (Elt F)) (b : Ref sig .tc)
    (hb : b ∉ ([main_v5, main_v6, main_v7] : List (Ref sig .tc))) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2⟩))

/-- An argument array (or any buffer that is no window's array of either region and that no host operation writes)
    ends as launched. -/
theorem memAttnOut_untouched (c : Dev nD) (b : Ref sig .tc)
    (h1 : ∀ w, Pipeline.arrRef spec1 w ≠ b) (h0 : ∀ w, Pipeline.arrRef spec0 w ≠ b)
    (hb1 : b ∉ ([main_v5, main_v6, main_v7] : List (Ref sig .tc)))
    (hb0 : b ∉ ([main_cst, main_v0, main_v1, main_v2, main_v3] : List (Ref sig .tc))) :
    memAttnOut m c (Proc.devRef .tc b) = m ((c : Thread nD τ).loc b) :=
  calc memAttnOut m c (Proc.devRef .tc b)
    _ = memAttnIn m c (Proc.devRef .tc b) := memAttnOut_of_ne m c b h1
    _ = memProjOut m c (Proc.devRef .tc b) := hostOps1_keeps _ b hb1
    _ = memProjIn m c (Proc.devRef .tc b) := memProjOut_of_ne m c b h0
    _ = memLaunch m c (Proc.devRef .tc b) := hostOps0_keeps _ b hb0
    _ = m ((c : Thread nD τ).loc b) := rfl

theorem memAttnOut_arg0 (c : Dev nD) : memAttnOut m c (Proc.devRef .tc main_arg0) = m ((c : Thread nD τ).loc main_arg0) :=
  memAttnOut_untouched m c main_arg0 (by decide) (by decide) (by decide) (by decide)
theorem memAttnOut_arg1 (c : Dev nD) : memAttnOut m c (Proc.devRef .tc main_arg1) = m ((c : Thread nD τ).loc main_arg1) :=
  memAttnOut_untouched m c main_arg1 (by decide) (by decide) (by decide) (by decide)
theorem memAttnOut_arg2 (c : Dev nD) : memAttnOut m c (Proc.devRef .tc main_arg2) = m ((c : Thread nD τ).loc main_arg2) :=
  memAttnOut_untouched m c main_arg2 (by decide) (by decide) (by decide) (by decide)
theorem memAttnOut_arg3 (c : Dev nD) : memAttnOut m c (Proc.devRef .tc main_arg3) = m ((c : Thread nD τ).loc main_arg3) :=
  memAttnOut_untouched m c main_arg3 (by decide) (by decide) (by decide) (by decide)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => projDat (refsProjIn m) c
  | ⟨1, _⟩ => fun c => attnDat (refsAttnIn m) c
abbrev 𝒱₀ : Variants := Variants.none
/-- No core owes another anything: no level is assigned. -/
abbrev noLevels : GSem nD τ sig → Finset Unit := fun _ => ∅
abbrev lvZero : GSem nD τ sig → Unit → ℕ := fun _ _ => 0
/-- What rides beside the buffers through every segment: the generator register at some state and the core's dues,
    at nothing. -/
abbrev riding (c : Dev nD) : sProp 𝕄 := iprop((∃ r, prngReg c r) ∗ ∃ W, owes (c : Thread nD τ) (0 : CellTallies nD τ sig Unit) W)
/-- A host stretch as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noLevels lvZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem hostOps0_noAlloc : (hostOps0 : List (HloOp τ sig (Elt F))).Forall fun op => op.fresh = ∅ := by
  simp only [List.Forall]; repeat' constructor
theorem hostOps1_noAlloc : (hostOps1 : List (HloOp τ sig (Elt F))).Forall fun op => op.fresh = ∅ := by
  simp only [List.Forall]; repeat' constructor
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev lastState (c : Dev nD) : sProp 𝕄 := iprop(StableHlo.held (c : Thread nD τ) (Pipeline.ucRefs τ sig) (memAttnOut m c) ∗ ∃ r, prngReg c r)

/-! ## The regions as segments -/

set_option backward.isDefEq.respectTransparency.types false in
/-- The projection region over the thread state: entered from every unscoped buffer at its entry contents, left at its
    exit contents. Its arrays are split out of the unscoped buffers and put back; the generator register goes into the
    region's invariant and out; nothing is owed; the kernel has no semaphore of its own. -/
def projSeg : Pipeline.RegionSeg (pcfgs (F := F)) adm (pdats m) () defs₀ 𝒱₀ noLevels lvZero 0 where
  win := launch0.win.to₀
  block_pos := launch0.block_pos
  stage_whole := launch0.stage_whole
  K := PEmpty
  osem k := k.elim
  ho := Pipeline.OwnSemFacts.none _
  hbody c := (proj_body_obligation (refsProjIn m) c).loose
  hwaits := Pipeline.hwaits_of_owed_zero _ _ _ _ noLevels lvZero 0 fun _ _ => rfl
  pre c := iprop(StableHlo.held (c : Thread nD τ) (Pipeline.ucRefs τ sig) (memProjIn m c) ∗ riding c)
  post c := iprop(StableHlo.held (c : Thread nD τ) (Pipeline.ucRefs τ sig) (memProjOut m c) ∗ riding c)
  X c := iprop(∃ r, prngReg c r)
  Y c := iprop(∃ r, prngReg c r)
  Z c := Pipeline.unscopedRest (Ix := Unit) (Name := ℕ) (U := UR sig nD τ) (Lvl := ℕ) spec0 c (refsProjIn m c)
  hentry c := by
    rw [Pipeline.ownSems0_none]
    have hsplit := Pipeline.arrays_of_unscopedBufs (p := 0) (pcfgs (F := F)) adm (pdats m) launch0.win launch0.arr_whole c
      ((pdats m 0 c).share_full fun _ => rfl) (refsProjIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (refsProjIn m c) (refsProjOut m c) ((pdats m 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state, likewise; it is left at what the launch reads at the end. -/
def attnSeg : Pipeline.RegionSeg (pcfgs (F := F)) adm (pdats m) () defs₀ 𝒱₀ noLevels lvZero 1 where
  win := launch1.win.to₀
  block_pos := launch1.block_pos
  stage_whole := launch1.stage_whole
  K := PEmpty
  osem k := k.elim
  ho := Pipeline.OwnSemFacts.none _
  hbody c := (attn_body_obligation (refsAttnIn m) c).loose
  hwaits := Pipeline.hwaits_of_owed_zero _ _ _ _ noLevels lvZero 1 fun _ _ => rfl
  pre c := iprop(StableHlo.held (c : Thread nD τ) (Pipeline.ucRefs τ sig) (memAttnIn m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (refsAttnIn m c)
  hentry c := by
    rw [Pipeline.ownSems0_none]
    have hsplit := Pipeline.arrays_of_unscopedBufs (p := 1) (pcfgs (F := F)) adm (pdats m) launch1.win launch1.arr_whole c
      ((pdats m 1 c).share_full fun _ => rfl) (refsAttnIn m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (refsAttnIn m c) (refsAttnOut m c) ((pdats m 1 c).arrAt · cfg1.N) (attnExit_arr m c) (attnExit_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ noLevels lvZero) :=
  [ .host (hostSeg hostOps0 hostOps0_sub hostOps0_noAlloc (memLaunch m)),
    .region (projSeg m),
    .host (hostSeg hostOps1 hostOps1_sub hostOps1_noAlloc (memProjOut m)),
    .region (attnSeg m) ]

theorem main_is_segs (c : Dev nD) : main (F := F) c = Pipeline.Seg.run (segs m) := (main_chain c).trans (by chain_rfl)

set_option backward.isDefEq.respectTransparency.types false in
/-- Every weakly fair execution of the program from memory m with zero counters terminates, nothing faulting, with every
    unscoped buffer of every core at the last boundary's contents. -/
theorem run_to_last (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = memAttnOut m c b) :=
  Pipeline.θ_run_regions_kit (pcfgs (F := F)) adm (pdats m) () cellOf_inj emb₁ defs₀ 𝒱₀ noLevels lvZero m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ riding c)) (Tₙ := lastState m)
    (hch := ⟨fun _ => .rfl, fun _ => .rfl, fun _ => .rfl, fun _ => .rfl, fun _ => .rfl⟩)
    (hinit := by
      refine Pipeline.initEach noLevels lvZero fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memAttnOut m c b)
    (hfin := fun c s' => by
      iintro ⟨⟨Hh, -⟩, HSI⟩
      unfold StableHlo.held
      imodintro
      iapply (pointsTo_read_all (Pipeline.ucRefs τ sig) (fun b => (((c : Thread nD τ)).1, b)) (memAttnOut m c) s')
      isplitl [Hh] <;> iassumption)
    (hQ := fun s h c => h c)

/-- The frame and the result in one statement: the result array ends at what the attention region's write-backs leave,
    the four argument arrays as launched. -/
theorem run_result (ρ : Dev nD → PrngReg) : θ_run defs (onTc (τ := τ) (main (F := F))) ⟨m, fun _ => 0, ρ⟩ (fun r => ∀ c : Dev nD,
      r.2.mem ((c.tc : Thread nD τ).loc main_v8) = (attnDat (refsAttnIn m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucRefs main_v8 (by decide))).trans (memAttnOut_arr m c 3),
     (h c _ (mem_ucRefs main_arg0 (by decide))).trans (memAttnOut_arg0 m c),
     (h c _ (mem_ucRefs main_arg1 (by decide))).trans (memAttnOut_arg1 m c),
     (h c _ (mem_ucRefs main_arg2 (by decide))).trans (memAttnOut_arg2 m c),
     (h c _ (mem_ucRefs main_arg3 (by decide))).trans (memAttnOut_arg3 m c)⟩) (run_to_last m ρ)

end Cert.KernelIdeal.Frame

end
-- ==== Proof.AttnIdx.lean ====
/-
  Index arithmetic shared by the value lemmas: where the three projection matrices sit in the concatenated [512, 192]
  slab (columns d, 64 + d and 128 + d), and which row of a [16384, ·] array is position t of batch b (row 2048·b + t).
-/
import Mathlib.Data.Fin.Basic
import Mathlib.Tactic.Linarith

namespace Cert.Attn

/-- Column d of the query part of the slab. -/
def colQ (d : Fin 64) : Fin 192 := ⟨d.val, by omega⟩
/-- Column d of the key part of the slab. -/
def colK (d : Fin 64) : Fin 192 := ⟨64 + d.val, by omega⟩
/-- Column d of the value part of the slab. -/
def colV (d : Fin 64) : Fin 192 := ⟨128 + d.val, by omega⟩

/-- Position t of batch b as a row of the flattened [16384, ·] arrays. -/
def rowOf (b : Fin 8) (t : Fin 2048) : Fin 16384 := ⟨2048 * b.val + t.val, by omega⟩

@[simp] theorem colQ_val (d : Fin 64) : (colQ d).val = d.val := rfl
@[simp] theorem colK_val (d : Fin 64) : (colK d).val = 64 + d.val := rfl
@[simp] theorem colV_val (d : Fin 64) : (colV d).val = 128 + d.val := rfl
@[simp] theorem rowOf_val (b : Fin 8) (t : Fin 2048) : (rowOf b t).val = 2048 * b.val + t.val := rfl

end Cert.Attn
-- ==== Proof.KiProjPayload.lean ====
/-
  The projection region's body at the ideal instance, at an index: the [2048, 192] product of a row block of the input
  with the [512, 192] slab is, at row p and column c, the sum over the 512 contraction positions k of x[p, k] · W[k, c]
  (the accumulator is the zero splat and the narrowing of the operands is exact); each output's one store holds 64
  consecutive columns of it, so at row p and column d the sum over k of x[p, k] · W[k, off + d] with off = 0, 64, 128.
-/
import proofs.«411043_j23192823399108_3_alg».proof.Proof.KiProjFrame
import proofs.«411043_j23192823399108_3_alg».proof.Proof.AttnIdx
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Val.Proj

open Cert.KernelIdeal Cert.KernelIdeal.Gen Cert.KernelIdeal.Frame
open Idealize.ShloMosaic Idealize.ShloMosaic.TcCoe Idealize.ShloMosaic.ValueIdx Idealize.SL.Sem

/-! ## The product of a row block with the slab, at an index -/

/-- The row of the left operand is the output's row, -/
theorem lhs_proj_0 (i : S2048x192.Idx) (q : dot_S2048x512_S512x192_S2048x192_1_0_0_1_n_n.contr.Idx) :
    (dot_S2048x512_S512x192_S2048x192_1_0_0_1_n_n.lhsIdx i q 0).val = (i 0).val := by
  unfold DotDims.lhsIdx
  rw [dif_neg (show ¬(0 : Fin S2048x512.rank) ∈ dot_S2048x512_S512x192_S2048x192_1_0_0_1_n_n.lhsBatch by decide), dif_pos (show (0 : Fin S2048x512.rank) ∈ dot_S2048x512_S512x192_S2048x192_1_0_0_1_n_n.lhsNonContracting by decide)]
  rfl
/-- its column the contraction index; -/
theorem lhs_proj_1 (i : S2048x192.Idx) (q : dot_S2048x512_S512x192_S2048x192_1_0_0_1_n_n.contr.Idx) :
    (dot_S2048x512_S512x192_S2048x192_1_0_0_1_n_n.lhsIdx i q 1).val = (q ⟨0, by decide⟩).val :=
  dot_S2048x512_S512x192_S2048x192_1_0_0_1_n_n.lhsIdx_val_of_single rfl i q
/-- the row of the right operand is the contraction index, -/
theorem rhs_proj_0 (i : S2048x192.Idx) (q : dot_S2048x512_S512x192_S2048x192_1_0_0_1_n_n.contr.Idx) :
    (dot_S2048x512_S512x192_S2048x192_1_0_0_1_n_n.rhsIdx i q 0).val = (q ⟨0, by decide⟩).val :=
  dot_S2048x512_S512x192_S2048x192_1_0_0_1_n_n.rhsIdx_val_of_single rfl i q
/-- its column the output's column. -/
theorem rhs_proj_1 (i : S2048x192.Idx) (q : dot_S2048x512_S512x192_S2048x192_1_0_0_1_n_n.contr.Idx) :
    (dot_S2048x512_S512x192_S2048x192_1_0_0_1_n_n.rhsIdx i q 1).val = (i 1).val := by
  unfold DotDims.rhsIdx
  rw [dif_neg (show ¬(1 : Fin S512x192.rank) ∈ dot_S2048x512_S512x192_S2048x192_1_0_0_1_n_n.rhsBatch by decide), dif_pos (show (1 : Fin S512x192.rank) ∈ dot_S2048x512_S512x192_S2048x192_1_0_0_1_n_n.rhsNonContracting by decide)]
  rfl

/-- The [2048, 192] product at row p and column c: the sum over the 512 contraction positions of the row block's
    entry times the slab's (the accumulator is the zero splat; the narrowing of the operands is exact). -/
theorem product_apply (x0 : Vec Ideal S2048x512 .f32) (x1 : Vec Ideal S512x192 .f32) (p : Fin 2048) (c : Fin 192) :
    k0_pay1 (F := Ideal) x0 x1 (ix2 p c) = ∑ k : Fin 512, x0 (ix2 p k) * x1 (ix2 k c) := by
  unfold k0_pay1
  simp only [matmul, shapeCast_self]
  rw [Ideal.matmul_constant_zero_apply, ← Equiv.sum_comp (contrEquiv1 dot_S2048x512_S512x192_S2048x192_1_0_0_1_n_n 512 rfl rfl).symm]
  refine Finset.sum_congr rfl fun k _ => ?_
  have hk := contrEquiv1_symm_val dot_S2048x512_S512x192_S2048x192_1_0_0_1_n_n 512 rfl rfl k
  have el : dot_S2048x512_S512x192_S2048x192_1_0_0_1_n_n.lhsIdx (ix2 p c) ((contrEquiv1 dot_S2048x512_S512x192_S2048x192_1_0_0_1_n_n 512 rfl rfl).symm k) = ix2 p k := funext fun a => Fin.ext (by
    match a with
    | ⟨0, _⟩ => exact lhs_proj_0 _ _
    | ⟨1, _⟩ => exact (lhs_proj_1 _ _).trans hk)
  have er : dot_S2048x512_S512x192_S2048x192_1_0_0_1_n_n.rhsIdx (ix2 p c) ((contrEquiv1 dot_S2048x512_S512x192_S2048x192_1_0_0_1_n_n 512 rfl rfl).symm k) = ix2 k c := funext fun a => Fin.ext (by
    match a with
    | ⟨0, _⟩ => exact (rhs_proj_0 _ _).trans hk
    | ⟨1, _⟩ => exact rhs_proj_1 _ _)
  rw [el, er]
  rfl

/-! ## Its column slices: what each output's one store holds -/

/-- Columns off … off + 63 of a [2048, 192] array: at row p and column d its entry at column off + d. -/
theorem columns_apply (off : Nat) (h : S2048x192.Slices ![0, off] S2048x64) (y : FVec Ideal S2048x192 .f32)
    (p : Fin 2048) (d : Fin 64) (c : Fin 192) (hc : c.val = off + d.val) :
    extractStridedSlice S2048x64 ![0, off] y h (ix2 p d) = y (ix2 p c) := by
  refine extractStridedSlice_apply _ _ _ _ _ fun a => ?_
  match a with
  | ⟨0, _⟩ => show p.val = 0 + p.val; omega
  | ⟨1, _⟩ => exact hc

/-- So the narrowed slice at offset off of the product, at row p and column d, is the sum over k of the row block's
    (p, k) entry times the slab's (k, off + d) entry. -/
theorem sliced_product_apply (off : Nat) (h : S2048x192.Slices ![0, off] S2048x64) (x0 : Vec Ideal S2048x512 .f32) (x1 : Vec Ideal S512x192 .f32)
    (p : Fin 2048) (d : Fin 64) (c : Fin 192) (hc : c.val = off + d.val) :
    (truncf .bf16 (extractStridedSlice S2048x64 ![0, off] (k0_pay1 (F := Ideal) x0 x1) h) bitsLt_bf16_f32 : FVec Ideal S2048x64 .bf16) (ix2 p d)
      = ∑ k : Fin 512, x0 (ix2 p k) * x1 (ix2 k c) :=
  (columns_apply off h (k0_pay1 (F := Ideal) x0 x1) p d c hc).trans (product_apply x0 x1 p c)

/-- Each store is through its buffer's whole rectangle: the offsets are zero. -/
theorem hz : (![0, 0] : Fin 2 → Nat) = fun _ => 0 := funext fun a => by fin_cases a <;> rfl

/-- The query output's buffer after the body, at row p and column d. -/
theorem projOutQ_apply (x0 : Vec Ideal S2048x512 .f32) (x1 : Vec Ideal S512x192 .f32) (p : Fin 2048) (d : Fin 64) :
    projOutQ (F := Ideal) x0 x1 (ix2 p d) = ∑ k : Fin 512, x0 (ix2 p k) * x1 (ix2 k (Cert.Attn.colQ d)) := by
  unfold projOutQ
  rw [View.canon_unit_zero hz]
  simp only [View.ld_unit_zero (S := S2048x512) hz, View.ld_unit_zero (S := S512x192) hz]
  exact sliced_product_apply 0 _ x0 x1 p d (Cert.Attn.colQ d) (by rw [Cert.Attn.colQ_val]; omega)

/-- The key output's. -/
theorem projOutK_apply (x0 : Vec Ideal S2048x512 .f32) (x1 : Vec Ideal S512x192 .f32) (p : Fin 2048) (d : Fin 64) :
    projOutK (F := Ideal) x0 x1 (ix2 p d) = ∑ k : Fin 512, x0 (ix2 p k) * x1 (ix2 k (Cert.Attn.colK d)) := by
  unfold projOutK
  rw [View.canon_unit_zero hz]
  simp only [View.ld_unit_zero (S := S2048x512) hz, View.ld_unit_zero (S := S512x192) hz]
  exact sliced_product_apply 64 _ x0 x1 p d (Cert.Attn.colK d) (Cert.Attn.colK_val d)

/-- The value output's. -/
theorem projOutV_apply (x0 : Vec Ideal S2048x512 .f32) (x1 : Vec Ideal S512x192 .f32) (p : Fin 2048) (d : Fin 64) :
    projOutV (F := Ideal) x0 x1 (ix2 p d) = ∑ k : Fin 512, x0 (ix2 p k) * x1 (ix2 k (Cert.Attn.colV d)) := by
  unfold projOutV
  rw [View.canon_unit_zero hz]
  simp only [View.ld_unit_zero (S := S2048x512) hz, View.ld_unit_zero (S := S512x192) hz]
  exact sliced_product_apply 128 _ x0 x1 p d (Cert.Attn.colV d) (Cert.Attn.colV_val d)

end Cert.KernelIdeal.Val.Proj

end
-- ==== Proof.KiProjValue.lean ====
/-
  The projection region's value at the ideal instance: after the eight row blocks have been written back, each of the
  three [16384, 64] outputs holds, at row r and column d, the sum over k of x[r, k] · W[k, col d], where x is the
  [16384, 512] input and W the [512, 192] slab as the region finds them, and col d is d, 64 + d or 128 + d (the query,
  key and value parts of the slab).

  The blocks of the two inputs read where the arrays hold them (rows 2048·t … 2048·t + 2047 at grid point t; the whole
  slab at every point), what each point writes back as block t of one whole-array function, and the cover of the
  16384 rows by the eight blocks (row r lies in the block of point r / 2048).
-/
import proofs.«411043_j23192823399108_3_alg».proof.Proof.KiProjPayload
import proofs.«411043_j23192823399108_3_alg».proof.Proof.KiProjFrame
import proofs.«411043_j23192823399108_3_alg».proof.Proof.AttnIdx
import Idealize.ShloMosaic.Lib.Pipeline.Value
import Idealize.ShloMosaic.Lib.ValueIdx
import Idealize.ShloMosaic.PureOps.Ideal

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The [16384, 512] input as the region finds it, -/
abbrev projInput (c : Dev nD) : S16384x512.Idx → EReal := V c main_v3
/-- and the [512, 192] slab. -/
abbrev projSlab (c : Dev nD) : S512x192.Idx → EReal := V c main_v2

namespace Proj

/-! ## The input blocks, read where the arrays hold them -/

/-- The input's and the slab's blocks at grid point t. -/
abbrev rowBlk (c : Dev nD) (t : Fin cfg0.N) : Vec Ideal S2048x512 .f32 := projBlk (F := Ideal) V c 0 t
abbrev slabBlk (c : Dev nD) (t : Fin cfg0.N) : Vec Ideal S512x192 .f32 := projBlk (F := Ideal) V c 1 t

/-- The index maps over the grid: at point t the input's row block and each output's row block is block t of the rows
    (one block of columns), and the slab's block never moves. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input's block at point t is its rows 2048·t … 2048·t + 2047. -/
theorem rows_apply (c : Dev nD) (t : Fin cfg0.N) (p : Fin 2048) (k : Fin 512) (r : Fin 16384) (hr : r.val = 2048 * t.val + p.val) :
    rowBlk V c t (ix2 p k) = projInput V c (ix2 r k) := by
  obtain ⟨e0, e1, -⟩ := idx_facts t
  show V c main_v3 (((cfg0.win 0).blk t).view.emb (ix2 p k)) = V c main_v3 (ix2 r k)
  congr 1
  funext a; apply Fin.ext
  match a with
  | ⟨0, _⟩ => show win0_0.index t (0 : Fin 2) * 2048 + 1 * p.val = r.val; omega
  | ⟨1, _⟩ => show win0_0.index t (1 : Fin 2) * 512 + 1 * k.val = k.val; omega

/-- The slab's block at every point is the slab. -/
theorem slab_apply (c : Dev nD) (t : Fin cfg0.N) (k : Fin 512) (j : Fin 192) :
    slabBlk V c t (ix2 k j) = projSlab V c (ix2 k j) := by
  obtain ⟨-, -, e0, e1, -⟩ := idx_facts t
  show V c main_v2 (((cfg0.win 1).blk t).view.emb (ix2 k j)) = V c main_v2 (ix2 k j)
  congr 1
  funext a; apply Fin.ext
  match a with
  | ⟨0, _⟩ => show win0_1.index t (0 : Fin 2) * 512 + 1 * k.val = k.val; omega
  | ⟨1, _⟩ => show win0_1.index t (1 : Fin 2) * 192 + 1 * j.val = j.val; omega

/-! ## What each point writes back, as a block of one whole-array function -/

/-- Row r of the input times column j of the slab. -/
def entry (c : Dev nD) (r : Fin 16384) (j : Fin 192) : EReal :=
  ∑ k : Fin 512, projInput V c (ix2 r k) * projSlab V c (ix2 k j)

/-- The [16384, 64] array of the columns col d of that product. -/
def cols (c : Dev nD) (col : Fin 64 → Fin 192) : S16384x64.Idx → EReal := fun i => entry V c (i 0) (col (i 1))

/-- It is read at an index by the index's two coordinates. -/
theorem cols_at (c : Dev nD) (col : Fin 64 → Fin 192) (i : S16384x64.Idx) (r : Fin 16384) (d : Fin 64)
    (h0 : (i 0).val = r.val) (h1 : (i 1).val = d.val) : cols V c col i = entry V c r (col d) := by
  have e : i = ix2 r d := funext fun a => Fin.ext (by
    match a with
    | ⟨0, _⟩ => exact h0
    | ⟨1, _⟩ => exact h1)
  subst e
  rfl

/-- Row p of point t's blocks: the sum over k of the row block's entry times the slab block's is the product's entry at
    row 2048·t + p of the arrays. -/
theorem block_value (c : Dev nD) (t : Fin cfg0.N) (p : Fin 2048) (j : Fin 192) (r : Fin 16384) (hr : r.val = 2048 * t.val + p.val) :
    ∑ k : Fin 512, rowBlk V c t (ix2 p k) * slabBlk V c t (ix2 k j) = entry V c r j := by
  unfold entry
  exact Finset.sum_congr rfl fun k _ => congrArg₂ (· * ·) (rows_apply V c t p k r hr) (slab_apply V c t k j)

/-- The grid has eight points. -/
theorem point_lt (t : Fin cfg0.N) : t.val < 8 := lt_of_lt_of_eq t.isLt N_0

/-- Point t writes back, into the query output, block t of the columns 0–63 of the product. -/
theorem wroteQ (c : Dev nD) (t : Fin cfg0.N) :
    (projDat (F := Ideal) V c).flushed 2 t = ((cfg0.win 2).blk t).view.read (Elt Ideal) (cols V c Cert.Attn.colQ) := by
  show (cfg0.win 2).cut (cfg0.grid.coords t) ((projDat (F := Ideal) V c).after 2 t) = _
  rw [projAfter2]
  obtain ⟨-, -, -, -, q0, q1, k0, k1, v0, v1⟩ := idx_facts t
  have ht := point_lt t
  funext y
  obtain ⟨p, d, rfl⟩ : ∃ (p : Fin 2048) (d : Fin 64), y = ix2 p d := ⟨y 0, y 1, eq_ix2 y⟩
  show projOutQ (F := Ideal) (rowBlk V c t) (slabBlk V c t) (ix2 p d) = cols V c Cert.Attn.colQ (((cfg0.win 2).blk t).view.emb (ix2 p d))
  refine (projOutQ_apply (rowBlk V c t) (slabBlk V c t) p d).trans ?_
  refine (block_value V c t p (Cert.Attn.colQ d) ⟨2048 * t.val + p.val, by omega⟩ rfl).trans ?_
  refine (cols_at V c Cert.Attn.colQ _ ⟨2048 * t.val + p.val, by omega⟩ d ?_ ?_).symm
  · show win0_2.index t (0 : Fin 2) * 2048 + 1 * p.val = 2048 * t.val + p.val; omega
  · show win0_2.index t (1 : Fin 2) * 64 + 1 * d.val = d.val; omega

/-- Point t writes back, into the key output, block t of the columns 64–127 of the product. -/
theorem wroteK (c : Dev nD) (t : Fin cfg0.N) :
    (projDat (F := Ideal) V c).flushed 3 t = ((cfg0.win 3).blk t).view.read (Elt Ideal) (cols V c Cert.Attn.colK) := by
  show (cfg0.win 3).cut (cfg0.grid.coords t) ((projDat (F := Ideal) V c).after 3 t) = _
  rw [projAfter3]
  obtain ⟨-, -, -, -, q0, q1, k0, k1, v0, v1⟩ := idx_facts t
  have ht := point_lt t
  funext y
  obtain ⟨p, d, rfl⟩ : ∃ (p : Fin 2048) (d : Fin 64), y = ix2 p d := ⟨y 0, y 1, eq_ix2 y⟩
  show projOutK (F := Ideal) (rowBlk V c t) (slabBlk V c t) (ix2 p d) = cols V c Cert.Attn.colK (((cfg0.win 3).blk t).view.emb (ix2 p d))
  refine (projOutK_apply (rowBlk V c t) (slabBlk V c t) p d).trans ?_
  refine (block_value V c t p (Cert.Attn.colK d) ⟨2048 * t.val + p.val, by omega⟩ rfl).trans ?_
  refine (cols_at V c Cert.Attn.colK _ ⟨2048 * t.val + p.val, by omega⟩ d ?_ ?_).symm
  · show win0_3.index t (0 : Fin 2) * 2048 + 1 * p.val = 2048 * t.val + p.val; omega
  · show win0_3.index t (1 : Fin 2) * 64 + 1 * d.val = d.val; omega

/-- Point t writes back, into the value output, block t of the columns 128–191 of the product. -/
theorem wroteV (c : Dev nD) (t : Fin cfg0.N) :
    (projDat (F := Ideal) V c).flushed 4 t = ((cfg0.win 4).blk t).view.read (Elt Ideal) (cols V c Cert.Attn.colV) := by
  show (cfg0.win 4).cut (cfg0.grid.coords t) ((projDat (F := Ideal) V c).after 4 t) = _
  rw [projAfter4]
  obtain ⟨-, -, -, -, q0, q1, k0, k1, v0, v1⟩ := idx_facts t
  have ht := point_lt t
  funext y
  obtain ⟨p, d, rfl⟩ : ∃ (p : Fin 2048) (d : Fin 64), y = ix2 p d := ⟨y 0, y 1, eq_ix2 y⟩
  show projOutV (F := Ideal) (rowBlk V c t) (slabBlk V c t) (ix2 p d) = cols V c Cert.Attn.colV (((cfg0.win 4).blk t).view.emb (ix2 p d))
  refine (projOutV_apply (rowBlk V c t) (slabBlk V c t) p d).trans ?_
  refine (block_value V c t p (Cert.Attn.colV d) ⟨2048 * t.val + p.val, by omega⟩ rfl).trans ?_
  refine (cols_at V c Cert.Attn.colV _ ⟨2048 * t.val + p.val, by omega⟩ d ?_ ?_).symm
  · show win0_4.index t (0 : Fin 2) * 2048 + 1 * p.val = 2048 * t.val + p.val; omega
  · show win0_4.index t (1 : Fin 2) * 64 + 1 * d.val = d.val; omega

/-- An index of the query output is in point t's block iff each coordinate is in the block's range on its axis. -/
theorem mem_blkQ (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v4_0).slice (win0_2.rect t)).set ↔ _
  rw [View.set_slice_whole, Rect.mem_set_unit]
  exact Iff.rfl

/-- Every index of the query output is in the block of the point its row divided by 2048 names. -/
theorem coverQ (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ : ∃ t : Fin cfg0.N, t.val = (i 0).val / 2048 :=
    ⟨⟨(i 0).val / 2048, by rw [show cfg0.N = 8 from N_0]; omega⟩, rfl⟩
  refine ⟨t, flush0_2 t, ?_⟩
  rw [mem_blkQ]
  obtain ⟨-, -, -, -, q0, q1, k0, k1, v0, v1⟩ := idx_facts t
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- An index of the key output is in point t's block iff each coordinate is in the block's range on its axis. -/
theorem mem_blkK (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v4_1).slice (win0_3.rect t)).set ↔ _
  rw [View.set_slice_whole, Rect.mem_set_unit]
  exact Iff.rfl

/-- Every index of the key output is in the block of the point its row divided by 2048 names. -/
theorem coverK (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  obtain ⟨t, ht⟩ : ∃ t : Fin cfg0.N, t.val = (i 0).val / 2048 :=
    ⟨⟨(i 0).val / 2048, by rw [show cfg0.N = 8 from N_0]; omega⟩, rfl⟩
  refine ⟨t, flush0_3 t, ?_⟩
  rw [mem_blkK]
  obtain ⟨-, -, -, -, q0, q1, k0, k1, v0, v1⟩ := idx_facts t
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 64 ≤ (i 1).val ∧ (i 1).val < win0_3.index t (1 : Fin 2) * 64 + 64; omega

/-- An index of the value output is in point t's block iff each coordinate is in the block's range on its axis. -/
theorem mem_blkV (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v4_2).slice (win0_4.rect t)).set ↔ _
  rw [View.set_slice_whole, Rect.mem_set_unit]
  exact Iff.rfl

/-- Every index of the value output is in the block of the point its row divided by 2048 names. -/
theorem coverV (i : S16384x64.Idx) : ∃ t : Fin cfg0.N, (cfg0.win 4).flush t = true ∧ i ∈ ((cfg0.win 4).blk t).view.set := by
  have hi0 : (i 0).val < 16384 := (i 0).isLt
  have hi1 : (i 1).val < 64 := (i 1).isLt
  obtain ⟨t, ht⟩ : ∃ t : Fin cfg0.N, t.val = (i 0).val / 2048 :=
    ⟨⟨(i 0).val / 2048, by rw [show cfg0.N = 8 from N_0]; omega⟩, rfl⟩
  refine ⟨t, flush0_4 t, ?_⟩
  rw [mem_blkV]
  obtain ⟨-, -, -, -, q0, q1, k0, k1, v0, v1⟩ := idx_facts t
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

end Proj

open Proj

/-! ## The three outputs after the region -/

/-- After the region the query output holds, at row r and column d, the sum over k of the input's (r, k) entry times
    the slab's (k, colQ d) entry. -/
theorem proj_q_apply (c : Dev nD) (r : Fin 16384) (d : Fin 64) :
    (projDat (F := Ideal) V c).arrAt 2 cfg0.N (ix2 r d) = ∑ k : Fin 512, projInput V c (ix2 r k) * projSlab V c (ix2 k (Cert.Attn.colQ d)) :=
  congrFun ((projDat (F := Ideal) V c).arrAt_eq_of_cover 2 (cols V c Cert.Attn.colQ) (fun t _ => wroteQ V c t) (coverQ)) (ix2 r d)

/-- After the region the key output holds, at row r and column d, the sum over k of the input's (r, k) entry times
    the slab's (k, colK d) entry. -/
theorem proj_k_apply (c : Dev nD) (r : Fin 16384) (d : Fin 64) :
    (projDat (F := Ideal) V c).arrAt 3 cfg0.N (ix2 r d) = ∑ k : Fin 512, projInput V c (ix2 r k) * projSlab V c (ix2 k (Cert.Attn.colK d)) :=
  congrFun ((projDat (F := Ideal) V c).arrAt_eq_of_cover 3 (cols V c Cert.Attn.colK) (fun t _ => wroteK V c t) (coverK)) (ix2 r d)

/-- After the region the value output holds, at row r and column d, the sum over k of the input's (r, k) entry times
    the slab's (k, colV d) entry. -/
theorem proj_v_apply (c : Dev nD) (r : Fin 16384) (d : Fin 64) :
    (projDat (F := Ideal) V c).arrAt 4 cfg0.N (ix2 r d) = ∑ k : Fin 512, projInput V c (ix2 r k) * projSlab V c (ix2 k (Cert.Attn.colV d)) :=
  congrFun ((projDat (F := Ideal) V c).arrAt_eq_of_cover 4 (cols V c Cert.Attn.colV) (fun t _ => wroteV V c t) (coverV)) (ix2 r d)

end Cert.KernelIdeal.Val

end
-- ==== Proof.AttnSpec.lean ====
/-
  Single-head attention over f32[8, 2048, 512] inputs and three f32[512, 64] projection matrices, as two
  index-by-index functions on the extended reals, and the law that joins them.

  Write x[b,t,c] for the input and W[c,d] for a projection matrix. A projection is
      proj W (b, t, d) = ∑ c, x[b,t,c] · W[c,d].
  From a score function s(b, t, u) (query row t against key row u of batch b) the softmax pieces are
      rowMax s (b, t)  = the maximum over u of s(b, t, u)   (a fold of max from −∞)
      expo s (b, t, u) = exp (s(b, t, u) − rowMax s (b, t))
      denom s (b, t)   = ∑ u, expo s (b, t, u).
  The two programs differ in two places only:
   * the scale 1/√64: one side folds 1/8 into the query projection matrix before projecting
     (scoreScaledW), the other divides the raw score by 8 afterwards (scoreDivided);
   * the normalisation: one side divides the value-weighted sum by the denominator once per output entry
     (outNormAfter), the other divides every weight first (outNormBefore).
  On finite inputs every intermediate value is a real number, the denominator is a sum of exponentials of
  reals, hence a positive real, and both differences are instances of distributivity in ℝ.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The input's index set, [8, 2048, 512]. -/
abbrev SX : Shape := ⟨3, ![8, 2048, 512]⟩
/-- A projection matrix's index set, [512, 64]. -/
abbrev SW : Shape := ⟨2, ![512, 64]⟩

/-- Row (b, t) of the input against column d of a projection matrix. -/
def proj (x : SX.Idx → EReal) (W : SW.Idx → EReal) (b : Fin 8) (t : Fin 2048) (d : Fin 64) : EReal :=
  ∑ c : Fin 512, x (ix3 b t c) * W (ix2 c d)

/-- The same with the matrix entry scaled by 1/8 before the product. -/
def projScaled (x : SX.Idx → EReal) (W : SW.Idx → EReal) (b : Fin 8) (t : Fin 2048) (d : Fin 64) : EReal :=
  ∑ c : Fin 512, x (ix3 b t c) * (W (ix2 c d) * ((1 / 8 : ℝ) : EReal))

/-- The score with the scale folded into the query projection matrix. -/
def scoreScaledW (x : SX.Idx → EReal) (Wk Wq : SW.Idx → EReal) (b : Fin 8) (t u : Fin 2048) : EReal :=
  ∑ d : Fin 64, projScaled x Wq b t d * proj x Wk b u d

/-- The score divided by 8 after the contraction. -/
def scoreDivided (x : SX.Idx → EReal) (Wk Wq : SW.Idx → EReal) (b : Fin 8) (t u : Fin 2048) : EReal :=
  Ideal.div (∑ d : Fin 64, proj x Wq b t d * proj x Wk b u d) ((8 : ℝ) : EReal)

/-- A row's maximum: the fold of max from −∞ over the key positions. -/
def rowMax (s : Fin 8 → Fin 2048 → Fin 2048 → EReal) (b : Fin 8) (t : Fin 2048) : EReal :=
  (Finset.univ : Finset (Fin 2048)).fold max ⊥ (fun u => s b t u)

/-- The shifted exponential. -/
def expo (s : Fin 8 → Fin 2048 → Fin 2048 → EReal) (b : Fin 8) (t u : Fin 2048) : EReal :=
  Ideal.exp (s b t u - rowMax s b t)

/-- The softmax denominator. -/
def denom (s : Fin 8 → Fin 2048 → Fin 2048 → EReal) (b : Fin 8) (t : Fin 2048) : EReal :=
  ∑ u : Fin 2048, expo s b t u

/-- Normalise after the value contraction: (∑ u, e(u) · v(u, d)) / ∑ u, e(u). -/
def outNormAfter (s : Fin 8 → Fin 2048 → Fin 2048 → EReal) (v : Fin 8 → Fin 2048 → Fin 64 → EReal)
    (b : Fin 8) (t : Fin 2048) (d : Fin 64) : EReal :=
  Ideal.div (∑ u : Fin 2048, expo s b t u * v b u d) (denom s b t)

/-- Normalise before it: ∑ u, (e(u) / ∑ u', e(u')) · v(u, d). -/
def outNormBefore (s : Fin 8 → Fin 2048 → Fin 2048 → EReal) (v : Fin 8 → Fin 2048 → Fin 64 → EReal)
    (b : Fin 8) (t : Fin 2048) (d : Fin 64) : EReal :=
  ∑ u : Fin 2048, Ideal.div (expo s b t u) (denom s b t) * v b u d

/-- The kernel side: scale folded into the query matrix, normalised after the value contraction. -/
def attnKernel (x : SX.Idx → EReal) (Wk Wq Wv : SW.Idx → EReal) (b : Fin 8) (t : Fin 2048) (d : Fin 64) : EReal :=
  outNormAfter (scoreScaledW x Wk Wq) (proj x Wv) b t d

/-- The reference side: score divided by 8, weights normalised first. -/
def attnRef (x : SX.Idx → EReal) (Wk Wq Wv : SW.Idx → EReal) (b : Fin 8) (t : Fin 2048) (d : Fin 64) : EReal :=
  outNormBefore (scoreDivided x Wk Wq) (proj x Wv) b t d

end Cert.Attn

end
-- ==== Proof.AttnConsts.lean ====
/-
  The float words the two programs spell, as the extended reals they denote: 1/8 (the scale folded into the
  query matrix), 64 under a square root (the divisor √64 = 8), −∞ (the start of a row maximum).
-/
import Idealize.ShloMosaic.PureOps.Ideal
import Idealize.ShloMosaic.PureOps.Ideal.Laws

noncomputable section

namespace Cert.Attn

open Idealize.ShloMosaic

/-- The word 0x3E000000 is 1/8. -/
theorem ofBits_eighth : Ideal.ofBits .f32 0x3E000000#32 = ((1 / 8 : ℝ) : EReal) := by
  simp [Ideal.ofBits, Ideal.ieee, -EReal.coe_mul]; norm_num

/-- The word 0x42800000 is 64. -/
theorem ofBits_64 : Ideal.ofBits .f32 0x42800000#32 = ((64 : ℝ) : EReal) := by
  simp [Ideal.ofBits, Ideal.ieee, -EReal.coe_mul]; norm_num

/-- √64 = 8 on the extended reals. -/
theorem sqrt_ofBits_64 : Ideal.sqrt (Ideal.ofBits .f32 0x42800000#32) = ((8 : ℝ) : EReal) := by
  rw [ofBits_64, Ideal.sqrt_coe, if_neg (by norm_num)]
  congr 1
  rw [show (64 : ℝ) = 8 ^ 2 by norm_num]
  exact Real.sqrt_sq (by norm_num)

/-- The word 0xFF800000 is −∞. -/
theorem ofBits_neg_inf : Ideal.ofBits .f32 0xFF800000#32 = (⊥ : EReal) := by
  simp [Ideal.ofBits, Ideal.ieee]

end Cert.Attn

end
-- ==== Proof.KiAttnPayload.lean ====
/-
  The attention body's stored value at an index of its [1, 512, 64] tile, at the ideal instance.

  The body takes a [1, 512, 64] tile of scaled queries q and the [1, 2048, 64] slabs of keys k and values v of one
  batch. With s[p, u] = ∑ e, q[p, e] · k[u, e] the scores, m[p] the maximum of row p of s (a fold of max from −∞),
  w[p, u] = exp (s[p, u] − m[p]) and l[p] = ∑ u, w[p, u], it stores (∑ u, w[p, u] · v[u, d]) / l[p] at (0, p, d).
  Here: the two contractions read at an index as sums over the contracted axis; the two lane reductions as a fold
  of max and a sum over the key axis; the row vector [512] viewed as a column [512, 1] and that column read along
  a row of [512, 2048] or [512, 64]; and the stored value at (0, p, d) as one row of attention, `rowAttn`, of row p of
  the query tile against the slabs.
-/
import proofs.«411043_j23192823399108_3_alg».proof.Proof.Gen.KernelIdeal.Skeleton
import proofs.«411043_j23192823399108_3_alg».proof.Proof.AttnSpec
import proofs.«411043_j23192823399108_3_alg».proof.Proof.AttnConsts
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen
open Idealize.ShloMosaic Idealize.ShloMosaic.ValueIdx

/-! ## The two contractions -/

theorem scoreDot_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem scoreDot_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem scoreDot_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem scoreDot_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score contraction at (p, u): the query row p against the key row u, over the 64 features. -/
theorem score_apply (q : FVec Ideal S512x64 .bf16) (k : FVec Ideal S2048x64 .bf16) (p : Fin 512) (u : Fin 2048) :
    matmul dot_S512x64_S2048x64_S512x2048_1_1_0_0_n_n none q k (constant (F := Ideal) S512x2048 .f32 0x00000000#32) (ix2 p u)
      = ∑ e : Fin 64, q (ix2 p e) * k (ix2 u e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  have el : dot_S512x64_S2048x64_S512x2048_1_1_0_0_n_n.lhsIdx (ix2 p u) ((contrEquiv1 dot_S512x64_S2048x64_S512x2048_1_1_0_0_n_n 64 rfl rfl).symm e) = ix2 p e := funext fun a => Fin.ext (by
    match a with
    | ⟨0, _⟩ => exact scoreDot_lhs_0 _ _
    | ⟨1, _⟩ => exact (scoreDot_lhs_1 _ _).trans hk)
  have er : dot_S512x64_S2048x64_S512x2048_1_1_0_0_n_n.rhsIdx (ix2 p u) ((contrEquiv1 dot_S512x64_S2048x64_S512x2048_1_1_0_0_n_n 64 rfl rfl).symm e) = ix2 u e := funext fun a => Fin.ext (by
    match a with
    | ⟨0, _⟩ => exact scoreDot_rhs_0 _ _
    | ⟨1, _⟩ => exact (scoreDot_rhs_1 _ _).trans hk)
  rw [el, er]

theorem valueDot_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem valueDot_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem valueDot_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem valueDot_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The value contraction at (p, d): the weights of row p against column d of the values, over the 2048 keys. -/
theorem value_apply (w : FVec Ideal S512x2048 .bf16) (v : FVec Ideal S2048x64 .bf16) (p : Fin 512) (d : Fin 64) :
    matmul dot_S512x2048_S2048x64_S512x64_1_0_0_1_n_n none w v (constant (F := Ideal) S512x64 .f32 0x00000000#32) (ix2 p d)
      = ∑ u : Fin 2048, w (ix2 p u) * v (ix2 u d) := by
  simp only [matmul]
  rw [Ideal.matmul_constant_zero_apply, ← Equiv.sum_comp (contrEquiv1 dot_S512x2048_S2048x64_S512x64_1_0_0_1_n_n 2048 rfl rfl).symm]
  refine Finset.sum_congr rfl fun u _ => ?_
  have hk := contrEquiv1_symm_val dot_S512x2048_S2048x64_S512x64_1_0_0_1_n_n 2048 rfl rfl u
  have el : dot_S512x2048_S2048x64_S512x64_1_0_0_1_n_n.lhsIdx (ix2 p d) ((contrEquiv1 dot_S512x2048_S2048x64_S512x64_1_0_0_1_n_n 2048 rfl rfl).symm u) = ix2 p u := funext fun a => Fin.ext (by
    match a with
    | ⟨0, _⟩ => exact valueDot_lhs_0 _ _
    | ⟨1, _⟩ => exact (valueDot_lhs_1 _ _).trans hk)
  have er : dot_S512x2048_S2048x64_S512x64_1_0_0_1_n_n.rhsIdx (ix2 p d) ((contrEquiv1 dot_S512x2048_S2048x64_S512x64_1_0_0_1_n_n 2048 rfl rfl).symm u) = ix2 u d := funext fun a => Fin.ext (by
    match a with
    | ⟨0, _⟩ => exact (valueDot_rhs_0 _ _).trans hk
    | ⟨1, _⟩ => exact valueDot_rhs_1 _ _)
  rw [el, er]

/-! ## The two lane reductions -/

/-- The index a reduction over the key axis inserts the key coordinate into is (p, u). -/
theorem lift_key (p : Fin 512) (u : Fin 2048) : reduces_S512x2048_S512.lift (ix1 p) u = ix2 p u :=
  funext fun a => Fin.ext (by match a with | ⟨0, _⟩ => rfl | ⟨1, _⟩ => rfl)

/-- The row maximum at p: the fold of max from −∞ over the row's 2048 entries. -/
theorem rowMax_apply (s : FVec Ideal S512x2048 .f32) (hφ : FKind.Formats .f32)
    (hacc : (0xFF800000#32 : BitVec 32) = 0xFF800000#32) (p : Fin 512) :
    multiReduction .maximumf [1] S512 s 0xFF800000#32 reduces_S512x2048_S512 hφ hacc (ix1 p)
      = (Finset.univ : Finset (Fin 2048)).fold max ⊥ (fun u => s (ix2 p u)) := by
  refine (Ideal.multiReduction_maximumf_single s 0xFF800000#32 reduces_S512x2048_S512 hφ hacc (ix1 p)).trans ?_
  show (Finset.univ : Finset (Fin 2048)).fold max (Ideal.ofBits .f32 0xFF800000#32) (fun u => s (reduces_S512x2048_S512.lift (ix1 p) u)) = _
  rw [Cert.Attn.ofBits_neg_inf]
  have e : (fun u : Fin 2048 => s (reduces_S512x2048_S512.lift (ix1 p) u)) = fun u => s (ix2 p u) :=
    funext fun u => congrArg s (lift_key p u)
  exact congrArg (fun f => Finset.fold max ⊥ f Finset.univ) e

/-- The row sum at p: the sum of the row's 2048 entries. -/
theorem rowSum_apply (s : FVec Ideal S512x2048 .f32) (hφ : FKind.Formats .f32)
    (hacc : (0x00000000#32 : BitVec 32) = 0x00000000#32) (p : Fin 512) :
    multiReduction .add [1] S512 s 0x00000000#32 reduces_S512x2048_S512 hφ hacc (ix1 p)
      = ∑ u : Fin 2048, s (ix2 p u) := by
  refine (Ideal.multiReduction_add_single s 0x00000000#32 reduces_S512x2048_S512 hφ hacc (ix1 p)).trans ?_
  show ∑ u : Fin 2048, s (reduces_S512x2048_S512.lift (ix1 p) u) = _
  exact Finset.sum_congr rfl fun u _ => congrArg s (lift_key p u)

/-- The exponential of a vector at an index. -/
theorem exp_apply {s : Shape} {φ : FTy} (a : FVec Ideal s φ) (i : s.Idx) : exp a i = Ideal.exp (a i) := rfl

/-! ## A row vector as a column, and a column along the rows -/

/-- A [a] vector cast to a [a, 1] column reads, at (i, z), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A [a, 1] column broadcast to [a, b] reads, at (i, j), the column at (i, 0). -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## One row of attention, and the payload at an index -/

/-- Query row q against keys K and values V: the scores s(u) = ∑ e, q(e)·K(u, e), their maximum m, and
    (∑ u, exp (s(u) − m) · V(u, d)) / ∑ u, exp (s(u) − m). -/
def rowAttn (q : Fin 64 → EReal) (K V : Fin 2048 → Fin 64 → EReal) (d : Fin 64) : EReal :=
  Ideal.div
    (∑ u : Fin 2048, Ideal.exp ((∑ e : Fin 64, q e * K u e) - (Finset.univ : Finset (Fin 2048)).fold max ⊥ (fun u' => ∑ e : Fin 64, q e * K u' e)) * V u d)
    (∑ u : Fin 2048, Ideal.exp ((∑ e : Fin 64, q e * K u e) - (Finset.univ : Finset (Fin 2048)).fold max ⊥ (fun u' => ∑ e : Fin 64, q e * K u' e)))

/-- The payload at (0, p, d) of the tile is row p of the query tile attended over the slab's keys and values. -/
theorem attnPayload_apply (x0 : Vec Ideal S1x512x64 .bf16) (x1 x2 : Vec Ideal S1x2048x64 .bf16) (z : Fin 1) (p : Fin 512) (d : Fin 64) :
    k1_pay1 x0 x1 x2 (ix3 z p d)
      = rowAttn (fun e => x0 (ix3 (0 : Fin 1) p e)) (fun u e => x1 (ix3 (0 : Fin 1) u e)) (fun u d => x2 (ix3 (0 : Fin 1) u d)) d := by
  unfold k1_pay1 rowAttn
  dsimp only
  rw [shapeCast_ab_1ab_apply, divf_apply, value_apply, broadcastTo_a1_ab_apply, shapeCast_a_a1_apply, rowSum_apply]
  simp only [truncf_apply, exp_apply, subf_apply, broadcastTo_a1_ab_apply, shapeCast_a_a1_apply]
  rw [rowMax_apply]
  simp only [score_apply, shapeCast_1ab_ab_apply]

end Cert.KernelIdeal.Val

end
-- ==== Proof.KiAttnValue.lean ====
/-
  The value of the attention region at the ideal instance: the [8, 2048, 64] output array after the region, index by
  index, as a function of the three [8, 2048, 64] arrays the region is entered with (scaled queries, keys, values).

  The grid is 8 × 4; point t is batch t / 4 and query tile t % 4. At point t the body reads rows
  512 · (t % 4) … 512 · (t % 4) + 511 of batch t / 4 of the queries and all 2048 rows of that batch's keys and values,
  and what it writes back is the [1, 512, 64] tile at the same place of the output. Each stored element is one row of
  attention (`rowAttn`) of the blocks, each block element is the array's element at block index × block size + the
  coordinate inside the block, so each tile written back is that tile of ONE array, `attnArr`: at (b, t, d), query row
  t of batch b against the batch's keys and values. The tiles of the 32 points cover the array (row r of batch b lies
  in the tile of point 4 · b + r / 512), hence the array after the region is `attnArr`.
-/
import proofs.«411043_j23192823399108_3_alg».proof.Proof.KiAttnFrame
import proofs.«411043_j23192823399108_3_alg».proof.Proof.KiAttnPayload
import proofs.«411043_j23192823399108_3_alg».proof.Proof.AttnSpec
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid: point t is batch t / 4, query tile t % 4 -/

/-- The block index maps, decided over the 32 points. -/
theorem attnIdx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

theorem pt_lt (t : Fin cfg1.N) : t.val < 32 := lt_of_lt_of_eq (show t.val < grid1.N from t.isLt) N_1

/-- The batch of point t. -/
def ptBatch (t : Fin cfg1.N) : Fin 8 := ⟨t.val / 4, by have := pt_lt t; omega⟩
/-- The row of the batch that row p of point t's query tile is. -/
def ptRow (t : Fin cfg1.N) (p : Fin 512) : Fin 2048 := ⟨512 * (t.val % 4) + p.val, by have := p.isLt; omega⟩

/-! ## The arrays, and the blocks read where the arrays say -/

/-- The region's three input arrays as it finds them, read as functions of a [8, 2048, 64] index: the scaled queries, -/
abbrev attnQ (c : Dev nD) : S8x2048x64.Idx → EReal := V c main_v5
/-- the keys, -/
abbrev attnK (c : Dev nD) : S8x2048x64.Idx → EReal := V c main_v6
/-- the values. -/
abbrev attnV (c : Dev nD) : S8x2048x64.Idx → EReal := V c main_v7

/-- Row p of the query tile at point t is row 512 · (t % 4) + p of batch t / 4 of the scaled queries. -/
theorem attnBlk0_apply (c : Dev nD) (t : Fin cfg1.N) (z : Fin 1) (p : Fin 512) (e : Fin 64) :
    (attnBlk V c 0 t : Vec Ideal S1x512x64 .bf16) (ix3 z p e) = attnQ V c (ix3 (ptBatch t) (ptRow t p) e) := by
  obtain ⟨e0, e1, e2, -⟩ := attnIdx_facts t
  have hz : z.val = 0 := by omega
  unfold attnBlk
  rw [View.read_apply]
  show V c main_v5 _ = V c main_v5 _
  congr 1
  funext a
  apply Fin.ext
  match a with
  | ⟨0, _⟩ => show win1_0.index t 0 * 1 + 1 * z.val = t.val / 4; rw [e0, hz]; omega
  | ⟨1, _⟩ => show win1_0.index t 1 * 512 + 1 * p.val = 512 * (t.val % 4) + p.val; rw [e1]; omega
  | ⟨2, _⟩ => show win1_0.index t 2 * 64 + 1 * e.val = e.val; rw [e2]; omega

/-- Row u of the key slab at point t is row u of batch t / 4 of the keys. -/
theorem attnBlk1_apply (c : Dev nD) (t : Fin cfg1.N) (z : Fin 1) (u : Fin 2048) (e : Fin 64) :
    (attnBlk V c 1 t : Vec Ideal S1x2048x64 .bf16) (ix3 z u e) = attnK V c (ix3 (ptBatch t) u e) := by
  obtain ⟨-, -, -, e0, e1, e2, -⟩ := attnIdx_facts t
  have hz : z.val = 0 := by omega
  unfold attnBlk
  rw [View.read_apply]
  show V c main_v6 _ = V c main_v6 _
  congr 1
  funext a
  apply Fin.ext
  match a with
  | ⟨0, _⟩ => show win1_1.index t 0 * 1 + 1 * z.val = t.val / 4; rw [e0, hz]; omega
  | ⟨1, _⟩ => show win1_1.index t 1 * 2048 + 1 * u.val = u.val; rw [e1]; omega
  | ⟨2, _⟩ => show win1_1.index t 2 * 64 + 1 * e.val = e.val; rw [e2]; omega

/-- Row u of the value slab at point t is row u of batch t / 4 of the values. -/
theorem attnBlk2_apply (c : Dev nD) (t : Fin cfg1.N) (z : Fin 1) (u : Fin 2048) (d : Fin 64) :
    (attnBlk V c 2 t : Vec Ideal S1x2048x64 .bf16) (ix3 z u d) = attnV V c (ix3 (ptBatch t) u d) := by
  obtain ⟨-, -, -, -, -, -, e0, e1, e2, -⟩ := attnIdx_facts t
  have hz : z.val = 0 := by omega
  unfold attnBlk
  rw [View.read_apply]
  show V c main_v7 _ = V c main_v7 _
  congr 1
  funext a
  apply Fin.ext
  match a with
  | ⟨0, _⟩ => show win1_2.index t 0 * 1 + 1 * z.val = t.val / 4; rw [e0, hz]; omega
  | ⟨1, _⟩ => show win1_2.index t 1 * 2048 + 1 * u.val = u.val; rw [e1]; omega
  | ⟨2, _⟩ => show win1_2.index t 2 * 64 + 1 * d.val = d.val; rw [e2]; omega

/-- Any [8, 2048, 64] array read through the output tile of point t: row p of the tile is row 512 · (t % 4) + p of
    batch t / 4. -/
theorem outBlk_apply (G : S8x2048x64.Idx → EReal) (t : Fin cfg1.N) (z : Fin 1) (p : Fin 512) (d : Fin 64) :
    (((cfg1.win 3).blk t).view.read (Elt Ideal) G : Vec Ideal S1x512x64 .f32) (ix3 z p d) = G (ix3 (ptBatch t) (ptRow t p) d) := by
  obtain ⟨-, -, -, -, -, -, -, -, -, e0, e1, e2⟩ := attnIdx_facts t
  have hz : z.val = 0 := by omega
  rw [View.read_apply]
  show G _ = G _
  congr 1
  funext a
  apply Fin.ext
  match a with
  | ⟨0, _⟩ => show win1_3.index t 0 * 1 + 1 * z.val = t.val / 4; rw [e0, hz]; omega
  | ⟨1, _⟩ => show win1_3.index t 1 * 512 + 1 * p.val = 512 * (t.val % 4) + p.val; rw [e1]; omega
  | ⟨2, _⟩ => show win1_3.index t 2 * 64 + 1 * d.val = d.val; rw [e2]; omega

/-! ## The output array -/

/-- The attention of the region's three input arrays: at (b, t, d), query row t of batch b against the batch's keys
    and values, the softmax normalised after the value contraction. -/
def attnArr (c : Dev nD) : S8x2048x64.Idx → EReal := fun i =>
  Cert.Attn.outNormAfter (fun b t u => ∑ e : Fin 64, attnQ V c (ix3 b t e) * attnK V c (ix3 b u e))
    (fun b u d => attnV V c (ix3 b u d)) (i 0) (i 1) (i 2)

/-- It is one row of attention at every index. -/
theorem attnArr_apply (c : Dev nD) (b : Fin 8) (t : Fin 2048) (d : Fin 64) :
    attnArr V c (ix3 b t d)
      = rowAttn (fun e => attnQ V c (ix3 b t e)) (fun u e => attnK V c (ix3 b u e)) (fun u d => attnV V c (ix3 b u d)) d := rfl

theorem hz3 : (![0, 0, 0] : Fin 3 → Nat) = fun _ => 0 := funext fun a => by fin_cases a <;> rfl

/-- What point t writes back is its tile of the attention array. -/
theorem attnFlushed_eq (c : Dev nD) (t : Fin cfg1.N) :
    (attnDat (F := Ideal) V c).flushed 3 t = ((cfg1.win 3).blk t).view.read (Elt Ideal) (attnArr V c) := by
  show (cfg1.win 3).cut (grid1.coords t) ((attnDat V c).after 3 t) = _
  rw [attnAfter3]
  unfold attnOut
  rw [View.canon_unit_zero hz3]
  simp only [View.ld_unit_zero (S := S1x512x64) hz3, View.ld_unit_zero (S := S1x2048x64) hz3]
  refine funext fun (y : S1x512x64.Idx) => ?_
  obtain ⟨z, p, d, rfl⟩ : ∃ (z : Fin 1) (p : Fin 512) (d : Fin 64), y = ix3 z p d := ⟨y 0, y 1, y 2, eq_ix3 y⟩
  refine Eq.trans ?_ (outBlk_apply (attnArr V c) t z p d).symm
  rw [attnArr_apply]
  refine (attnPayload_apply _ _ _ z p d).trans ?_
  exact congrFun (congr (congr (congrArg rowAttn (funext fun e => attnBlk0_apply V c t 0 p e))
    (funext fun u => funext fun e => attnBlk1_apply V c t 0 u e)) (funext fun u => funext fun d' => attnBlk2_apply V c t 0 u d')) d

/-! ## The tiles cover the array -/

/-- An index is in point t's tile iff each coordinate is in the tile's range on its axis. -/
theorem outBlk_mem (t : Fin cfg1.N) (i : S8x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v8).slice (win1_3.rect t)).set ↔ _
  rw [View.set_slice_whole, Rect.mem_set_unit]
  exact Iff.rfl

/-- Row r of batch b lies in the tile of point 4 · b + r / 512. -/
theorem attn_cover (i : S8x2048x64.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 64 := (i 2).isLt
  obtain ⟨t, ht⟩ : ∃ t : Fin cfg1.N, t.val = 4 * (i 0).val + (i 1).val / 512 :=
    ⟨⟨4 * (i 0).val + (i 1).val / 512, by show _ < grid1.N; rw [N_1]; omega⟩, rfl⟩
  obtain ⟨-, -, -, -, -, -, -, -, -, e0, e1, e2⟩ := attnIdx_facts t
  refine ⟨t, flush1_3 t, ?_⟩
  rw [outBlk_mem]
  intro a
  match a with
  | ⟨0, _⟩ => show win1_3.index t 0 * 1 ≤ (i 0).val ∧ (i 0).val < win1_3.index t 0 * 1 + 1; rw [e0]; omega
  | ⟨1, _⟩ => show win1_3.index t 1 * 512 ≤ (i 1).val ∧ (i 1).val < win1_3.index t 1 * 512 + 512; rw [e1]; omega
  | ⟨2, _⟩ => show win1_3.index t 2 * 64 ≤ (i 2).val ∧ (i 2).val < win1_3.index t 2 * 64 + 64; rw [e2]; omega

/-! ## The region's value -/

/-- The output array after the region is the attention array. -/
theorem attn_final (c : Dev nD) : (attnDat (F := Ideal) V c).arrAt 3 cfg1.N = attnArr V c :=
  (attnDat (F := Ideal) V c).arrAt_eq_of_cover 3 (attnArr V c) (fun t _ => attnFlushed_eq V c t) attn_cover

/-- Index by index: the softmax pieces of the score of the scaled queries against the keys, over the values. -/
theorem attn_apply (c : Dev nD) (b : Fin 8) (t : Fin 2048) (d : Fin 64) :
    (attnDat (F := Ideal) V c).arrAt 3 cfg1.N (ix3 b t d)
      = Cert.Attn.outNormAfter (fun b t u => ∑ e : Fin 64, attnQ V c (ix3 b t e) * attnK V c (ix3 b u e))
          (fun b u d => attnV V c (ix3 b u d)) b t d := by
  rw [attn_final]
  rfl

end Cert.KernelIdeal.Val

end
-- ==== Proof.LibNary3.lean ====
import Idealize.ShloMosaic.Lib.StableHlo.Run

noncomputable section

namespace Idealize.ShloMosaic.StableHlo

variable {τ : Topo} {sig : RefSig} {Val : EltTy → Type}
variable {x a b y : Ref sig .tc}

/-- An operation over a LITERAL family of three references (a concatenate of three operands, written
    `nary ![x, a, b] …`) leaves at its result buffer its function applied to the three operands' contents, each read
    AT ITS OWN REFERENCE: `Fin.cons (F ↑x) (Fin.cons (F ↑a) (Fin.cons (F ↑b) _))` in place of
    `fun k => F ↑(![x, a, b] k)`. The two families agree at each of the three indices, which is all a function of a
    family can see. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KiHostValue.lean ====
/-
  What the host operations around the two regions leave in the buffers the regions read, entry by entry.
  Before the projection region: the input reshaped to [16384, 512] (row 2048·b + t is position t of batch b), and the
  [512, 192] slab whose columns d, 64 + d, 128 + d are the query matrix times 1/8, the key matrix and the value matrix.
  Before the attention region: the three projection outputs reshaped from [16384, 64] to [8, 2048, 64].
-/
import proofs.«411043_j23192823399108_3_alg».proof.Proof.KiRun
import proofs.«411043_j23192823399108_3_alg».proof.Proof.AttnIdx
import proofs.«411043_j23192823399108_3_alg».proof.Proof.AttnConsts
import proofs.«411043_j23192823399108_3_alg».proof.Proof.LibNary3
import Idealize.ShloMosaic.Lib.Pipeline.Value
import Idealize.ShloMosaic.Lib.ValueIdx
import Idealize.ShloMosaic.Lib.StableHlo.Run

noncomputable section

namespace Cert.KernelIdeal.Val

open Cert.KernelIdeal Cert.KernelIdeal.Gen Cert.KernelIdeal.Frame
open Idealize.ShloMosaic Idealize.ShloMosaic.TcCoe Idealize.ShloMosaic.ValueIdx

variable (m : (ℓ : Loc nD τ sig) → Buf (Elt Ideal) ℓ)

/-- Rewrites each host operation's result at its own buffer to its function's value and at any other buffer to what
    was there, until none applies. -/
local macro "results_loop" : tactic =>
  `(tactic| (repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide))))

/-! ### The buffers as terms -/

/-- The reshaped input, as a term. -/
theorem projIn_v3 (c : Dev nD) :
    (refsProjIn m c main_v3 : S16384x512.Idx → EReal)
      = shapeCast S16384x512 (m ((c.tc : Thread nD τ).loc main_arg0) : S8x2048x512.Idx → EReal) shapeCasts_S8x2048x512_S16384x512 := by
  show StableHlo.after hostOps0 (memLaunch m c) (Proc.devRef .tc main_v3) = _
  after_results
  rfl

/-- The slab, as a term: the concatenation along the columns of Wq times the broadcast constant, Wk and Wv. -/
theorem projIn_v2 (c : Dev nD) :
    (refsProjIn m c main_v2 : S512x192.Idx → EReal)
      = concatenate S512x192 1
          [⟨S512x64, mulf (m ((c.tc : Thread nD τ).loc main_arg2) : S512x64.Idx → EReal)
              (broadcastInDim S512x64 ![] bcast_S_S512x64 (constant (F := Ideal) S_ .f32 0x3E000000#32))⟩,
           ⟨S512x64, (m ((c.tc : Thread nD τ).loc main_arg1) : S512x64.Idx → EReal)⟩,
           ⟨S512x64, (m ((c.tc : Thread nD τ).loc main_arg3) : S512x64.Idx → EReal)⟩]
          concatenates_S512x64_S512x64_S512x64_S512x192_d1 := by
  show StableHlo.after hostOps0 (memLaunch m c) (Proc.devRef .tc main_v2) = _
  simp only [StableHlo.after_cons, StableHlo.after_nil]
  rw [StableHlo.reshape_result_ne]; rotate_left; decide
  rw [StableHlo.nary3_result]
  results_loop
  rfl

/-- The three reshaped projection outputs, as terms. -/
theorem attnIn_v5 (c : Dev nD) :
    (refsAttnIn m c main_v5 : S8x2048x64.Idx → EReal)
      = shapeCast S8x2048x64 ((projDat (refsProjIn m) c).arrAt 2 cfg0.N : S16384x64.Idx → EReal) shapeCasts_S16384x64_S8x2048x64 := by
  have e : memProjOut m c (Proc.devRef .tc main_v4_0) = (projDat (refsProjIn m) c).arrAt 2 cfg0.N := memProjOut_arr m c 2
  show StableHlo.after hostOps1 (memProjOut m c) (Proc.devRef .tc main_v5) = _
  after_results
  rw [e]
  rfl
theorem attnIn_v6 (c : Dev nD) :
    (refsAttnIn m c main_v6 : S8x2048x64.Idx → EReal)
      = shapeCast S8x2048x64 ((projDat (refsProjIn m) c).arrAt 3 cfg0.N : S16384x64.Idx → EReal) shapeCasts_S16384x64_S8x2048x64 := by
  have e : memProjOut m c (Proc.devRef .tc main_v4_1) = (projDat (refsProjIn m) c).arrAt 3 cfg0.N := memProjOut_arr m c 3
  show StableHlo.after hostOps1 (memProjOut m c) (Proc.devRef .tc main_v6) = _
  after_results
  rw [e]
  rfl
theorem attnIn_v7 (c : Dev nD) :
    (refsAttnIn m c main_v7 : S8x2048x64.Idx → EReal)
      = shapeCast S8x2048x64 ((projDat (refsProjIn m) c).arrAt 4 cfg0.N : S16384x64.Idx → EReal) shapeCasts_S16384x64_S8x2048x64 := by
  have e : memProjOut m c (Proc.devRef .tc main_v4_2) = (projDat (refsProjIn m) c).arrAt 4 cfg0.N := memProjOut_arr m c 4
  show StableHlo.after hostOps1 (memProjOut m c) (Proc.devRef .tc main_v7) = _
  after_results
  rw [e]
  rfl

/-! ### Row-major positions -/

theorem rm2 {n0 n1 : Nat} (a : Fin n0) (b : Fin n1) :
    ((⟨2, ![n0, n1]⟩ : Shape).rowMajor (ix2 a b)).val = a.val * n1 + b.val := by
  rw [Shape.rowMajor_val_two]; rfl
theorem rm3 {n0 n1 n2 : Nat} (a : Fin n0) (b : Fin n1) (c : Fin n2) :
    ((⟨3, ![n0, n1, n2]⟩ : Shape).rowMajor (ix3 a b c)).val = (a.val * n1 + b.val) * n2 + c.val := by
  rw [Shape.rowMajor_val_three]; rfl

/-- A [8, 2048, n] array reshaped to or from [16384, n]: entry (b, t, k) is entry (2048·b + t, k). -/
theorem flat_of_batched {n : Nat} {α : Type} (x : (⟨3, ![8, 2048, n]⟩ : Shape).Idx → α)
    (h : (⟨3, ![8, 2048, n]⟩ : Shape).ShapeCasts ⟨2, ![16384, n]⟩) (b : Fin 8) (t : Fin 2048) (k : Fin n) :
    shapeCast (⟨2, ![16384, n]⟩ : Shape) x h (ix2 (Cert.Attn.rowOf b t) k) = x (ix3 b t k) :=
  shapeCast_apply x h _ (ix3 b t k) (by rw [rm3, rm2, Cert.Attn.rowOf_val, Nat.mul_comm 2048 b.val])
theorem batched_of_flat {n : Nat} {α : Type} (x : (⟨2, ![16384, n]⟩ : Shape).Idx → α)
    (h : (⟨2, ![16384, n]⟩ : Shape).ShapeCasts ⟨3, ![8, 2048, n]⟩) (b : Fin 8) (t : Fin 2048) (k : Fin n) :
    shapeCast (⟨3, ![8, 2048, n]⟩ : Shape) x h (ix3 b t k) = x (ix2 (Cert.Attn.rowOf b t) k) :=
  shapeCast_apply x h _ (ix2 (Cert.Attn.rowOf b t) k) (by rw [rm3, rm2, Cert.Attn.rowOf_val, Nat.mul_comm 2048 b.val])

/-! ### The slab's three parts -/

section Slab
variable (A B C : S512x64.Idx → EReal) (k : Fin 512) (d : Fin 64)

theorem slab_off (d' : Fin 64) (j1 : Fin 192) :
    ∀ b' : Fin S512x64.rank, b'.cast (rfl : S512x64.rank = S512x192.rank) ≠ (1 : Fin S512x192.rank) →
      ((ix2 k d' : S512x64.Idx) b').val = ((ix2 k j1 : S512x192.Idx) (b'.cast rfl)).val := by
  intro b' hb
  match b', hb with
  | ⟨0, _⟩, _ => rfl
  | ⟨1, _⟩, hb => exact absurd rfl hb

theorem slab_q :
    concatenate S512x192 1 [⟨S512x64, A⟩, ⟨S512x64, B⟩, ⟨S512x64, C⟩] concatenates_S512x64_S512x64_S512x64_S512x192_d1
      (ix2 k (Cert.Attn.colQ d)) = A (ix2 k d) :=
  concatenate_apply_piece (1 : Fin S512x192.rank) _ _ _ 0 (by simp) S512x64 A rfl rfl 0 rfl (ix2 k d)
    (slab_off k d _) (by show 0 + d.val = (Cert.Attn.colQ d).val; simp)
theorem slab_k :
    concatenate S512x192 1 [⟨S512x64, A⟩, ⟨S512x64, B⟩, ⟨S512x64, C⟩] concatenates_S512x64_S512x64_S512x64_S512x192_d1
      (ix2 k (Cert.Attn.colK d)) = B (ix2 k d) :=
  concatenate_apply_piece (1 : Fin S512x192.rank) _ _ _ 1 (by simp) S512x64 B rfl rfl 64 rfl (ix2 k d)
    (slab_off k d _) (by show 64 + d.val = (Cert.Attn.colK d).val; simp)
theorem slab_v :
    concatenate S512x192 1 [⟨S512x64, A⟩, ⟨S512x64, B⟩, ⟨S512x64, C⟩] concatenates_S512x64_S512x64_S512x64_S512x192_d1
      (ix2 k (Cert.Attn.colV d)) = C (ix2 k d) :=
  concatenate_apply_piece (1 : Fin S512x192.rank) _ _ _ 2 (by simp) S512x64 C rfl rfl 128 rfl (ix2 k d)
    (slab_off k d _) (by show 128 + d.val = (Cert.Attn.colV d).val; simp)

end Slab

/-! ### The entries -/

theorem projIn_x (c : Dev nD) (b : Fin 8) (t : Fin 2048) (k : Fin 512) :
    refsProjIn m c main_v3 (ix2 (Cert.Attn.rowOf b t) k) = m ((c.tc : Thread nD τ).loc main_arg0) (ix3 b t k) :=
  (congrFun (projIn_v3 m c) _).trans (flat_of_batched _ _ b t k)

theorem projIn_slab_q (c : Dev nD) (k : Fin 512) (d : Fin 64) :
    refsProjIn m c main_v2 (ix2 k (Cert.Attn.colQ d))
      = HMul.hMul (α := EReal) (β := EReal) (γ := EReal) (m ((c.tc : Thread nD τ).loc main_arg2) (ix2 k d)) ((1 / 8 : ℝ) : EReal) := by
  refine (congrFun (projIn_v2 m c) _).trans ((slab_q _ _ _ k d).trans ?_)
  rw [mulf_apply]
  exact congrArg (HMul.hMul (α := EReal) (β := EReal) (γ := EReal) (m ((c.tc : Thread nD τ).loc main_arg2) (ix2 k d)))
    Cert.Attn.ofBits_eighth
theorem projIn_slab_k (c : Dev nD) (k : Fin 512) (d : Fin 64) :
    refsProjIn m c main_v2 (ix2 k (Cert.Attn.colK d)) = m ((c.tc : Thread nD τ).loc main_arg1) (ix2 k d) :=
  (congrFun (projIn_v2 m c) _).trans (slab_k _ _ _ k d)
theorem projIn_slab_v (c : Dev nD) (k : Fin 512) (d : Fin 64) :
    refsProjIn m c main_v2 (ix2 k (Cert.Attn.colV d)) = m ((c.tc : Thread nD τ).loc main_arg3) (ix2 k d) :=
  (congrFun (projIn_v2 m c) _).trans (slab_v _ _ _ k d)

theorem attnIn_q (c : Dev nD) (b : Fin 8) (t : Fin 2048) (e : Fin 64) :
    refsAttnIn m c main_v5 (ix3 b t e) = (projDat (refsProjIn m) c).arrAt 2 cfg0.N (ix2 (Cert.Attn.rowOf b t) e) :=
  (congrFun (attnIn_v5 m c) _).trans (batched_of_flat _ _ b t e)
theorem attnIn_k (c : Dev nD) (b : Fin 8) (t : Fin 2048) (e : Fin 64) :
    refsAttnIn m c main_v6 (ix3 b t e) = (projDat (refsProjIn m) c).arrAt 3 cfg0.N (ix2 (Cert.Attn.rowOf b t) e) :=
  (congrFun (attnIn_v6 m c) _).trans (batched_of_flat _ _ b t e)
theorem attnIn_v (c : Dev nD) (b : Fin 8) (t : Fin 2048) (e : Fin 64) :
    refsAttnIn m c main_v7 (ix3 b t e) = (projDat (refsProjIn m) c).arrAt 4 cfg0.N (ix2 (Cert.Attn.rowOf b t) e) :=
  (congrFun (attnIn_v7 m c) _).trans (batched_of_flat _ _ b t e)

end Cert.KernelIdeal.Val

end
-- ==== Proof.KiKernelValue.lean ====
/-
  The kernel program's result as a function of its arguments, at the ideal instance: what the attention region's
  write-backs leave in the result array is the attention of the scaled queries against the keys and values; those three
  arrays are reshapes of what the projection region's write-backs leave, which are the row-by-column products of the
  reshaped input with the three parts of the concatenated weight slab; and the slab's query part is Wq times 1/8. Put
  together, the result at (b, t, d) is Cert.Attn.attnKernel of the four argument arrays.
-/
import proofs.«411043_j23192823399108_3_alg».proof.Proof.KiRun
import proofs.«411043_j23192823399108_3_alg».proof.Proof.KiProjValue
import proofs.«411043_j23192823399108_3_alg».proof.Proof.KiAttnValue
import proofs.«411043_j23192823399108_3_alg».proof.Proof.KiHostValue
import proofs.«411043_j23192823399108_3_alg».proof.Proof.AttnSpec
import proofs.«411043_j23192823399108_3_alg».proof.Proof.AttnIdx

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem

variable (m : (ℓ : Loc nD τ sig) → Buf (Elt Ideal) ℓ)

/-- The result array after the run, read at (b, t, d). -/
theorem kernel_result_apply (c : Dev nD) (b : Fin 8) (t : Fin 2048) (d : Fin 64) :
    (attnDat (F := Ideal) (refsAttnIn m) c).arrAt 3 cfg1.N (ix3 b t d)
      = Cert.Attn.attnKernel (m ((c.tc : Thread nD τ).loc main_arg0)) (m ((c.tc : Thread nD τ).loc main_arg1))
          (m ((c.tc : Thread nD τ).loc main_arg2)) (m ((c.tc : Thread nD τ).loc main_arg3)) b t d := by
  have hq : ∀ (b : Fin 8) (t : Fin 2048) (e : Fin 64), attnQ (refsAttnIn m) c (ix3 b t e) = Cert.Attn.projScaled (m ((c.tc : Thread nD τ).loc main_arg0)) (m ((c.tc : Thread nD τ).loc main_arg2)) b t e := fun b t e => by
    have hsum : (∑ k : Fin 512, projInput (refsProjIn m) c (ix2 (Cert.Attn.rowOf b t) k) * projSlab (refsProjIn m) c (ix2 k (Cert.Attn.colQ e)) : EReal)
        = Cert.Attn.projScaled (m ((c.tc : Thread nD τ).loc main_arg0)) (m ((c.tc : Thread nD τ).loc main_arg2)) b t e := by
      unfold Cert.Attn.projScaled
      exact Finset.sum_congr rfl fun k _ => congrArg₂ (· * ·) (projIn_x m c b t k) (projIn_slab_q m c k e)
    exact (attnIn_q m c b t e).trans ((proj_q_apply (refsProjIn m) c (Cert.Attn.rowOf b t) e).trans hsum)
  have hk : ∀ (b : Fin 8) (u : Fin 2048) (e : Fin 64), attnK (refsAttnIn m) c (ix3 b u e) = Cert.Attn.proj (m ((c.tc : Thread nD τ).loc main_arg0)) (m ((c.tc : Thread nD τ).loc main_arg1)) b u e := fun b u e => by
    have hsum : (∑ k : Fin 512, projInput (refsProjIn m) c (ix2 (Cert.Attn.rowOf b u) k) * projSlab (refsProjIn m) c (ix2 k (Cert.Attn.colK e)) : EReal)
        = Cert.Attn.proj (m ((c.tc : Thread nD τ).loc main_arg0)) (m ((c.tc : Thread nD τ).loc main_arg1)) b u e := by
      unfold Cert.Attn.proj
      exact Finset.sum_congr rfl fun k _ => congrArg₂ (· * ·) (projIn_x m c b u k) (projIn_slab_k m c k e)
    exact (attnIn_k m c b u e).trans ((proj_k_apply (refsProjIn m) c (Cert.Attn.rowOf b u) e).trans hsum)
  have hv : ∀ (b : Fin 8) (u : Fin 2048) (e : Fin 64), attnV (refsAttnIn m) c (ix3 b u e) = Cert.Attn.proj (m ((c.tc : Thread nD τ).loc main_arg0)) (m ((c.tc : Thread nD τ).loc main_arg3)) b u e := fun b u e => by
    have hsum : (∑ k : Fin 512, projInput (refsProjIn m) c (ix2 (Cert.Attn.rowOf b u) k) * projSlab (refsProjIn m) c (ix2 k (Cert.Attn.colV e)) : EReal)
        = Cert.Attn.proj (m ((c.tc : Thread nD τ).loc main_arg0)) (m ((c.tc : Thread nD τ).loc main_arg3)) b u e := by
      unfold Cert.Attn.proj
      exact Finset.sum_congr rfl fun k _ => congrArg₂ (· * ·) (projIn_x m c b u k) (projIn_slab_v m c k e)
    exact (attnIn_v m c b u e).trans ((proj_v_apply (refsProjIn m) c (Cert.Attn.rowOf b u) e).trans hsum)
  rw [attn_apply]
  have hs : (fun (b : Fin 8) (t u : Fin 2048) => ∑ e : Fin 64, attnQ (refsAttnIn m) c (ix3 b t e) * attnK (refsAttnIn m) c (ix3 b u e))
      = Cert.Attn.scoreScaledW (m ((c.tc : Thread nD τ).loc main_arg0)) (m ((c.tc : Thread nD τ).loc main_arg1)) (m ((c.tc : Thread nD τ).loc main_arg2)) := by
    funext b t u
    unfold Cert.Attn.scoreScaledW
    exact Finset.sum_congr rfl fun e _ => congrArg₂ (· * ·) (hq b t e) (hk b u e)
  have hvals : (fun (b : Fin 8) (u : Fin 2048) (d : Fin 64) => attnV (refsAttnIn m) c (ix3 b u d)) = Cert.Attn.proj (m ((c.tc : Thread nD τ).loc main_arg0)) (m ((c.tc : Thread nD τ).loc main_arg3)) := by
    funext b u d; exact hv b u d
  rw [hs, hvals]
  rfl

end Cert.KernelIdeal.Val

end
-- ==== Proof.RefValueScore.lean ====
/-
  The reference program read at an index, first half: the three projections, the score divided by √64 = 8,
  and the row maximum.

  The program's stages are read from the outside in. A projection stage at (b, t, d) is the sum over c of
  x[b,t,c] · W[c,d]. The score stage contracts the query projection at (b, t, ·) against the key projection at
  (b, u, ·); its divisor is the broadcast of the square root of the constant 64, which is 8. The row maximum is
  a fold of max over the key axis from the constant −∞, followed by a maximum with a broadcast −∞, which changes
  nothing because max ⊥ a = a.
-/
import proofs.«411043_j23192823399108_3_alg».proof.Proof.Gen.ReferenceIdeal.Read
import proofs.«411043_j23192823399108_3_alg».proof.Proof.AttnSpec
import proofs.«411043_j23192823399108_3_alg».proof.Proof.AttnConsts
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x : (⟨S8x2048x512, .f32⟩ : BufTy).Contents (Elt Ideal)) (Wk Wq Wv W : (⟨S512x64, .f32⟩ : BufTy).Contents (Elt Ideal))

/-! ## The index functions at an index given by its coordinates -/

theorem lidx_v0 (b : Fin 8) (t : Fin 2048) (d : Fin 64) (c : Fin 512) : lidx_main_v0 (ix3 b t d) c = ix3 b t c :=
  funext fun a => match a with | ⟨0, _⟩ => rfl | ⟨1, _⟩ => rfl | ⟨2, _⟩ => rfl
theorem ridx_v0 (b : Fin 8) (t : Fin 2048) (d : Fin 64) (c : Fin 512) : ridx_main_v0 (ix3 b t d) c = ix2 c d :=
  funext fun a => match a with | ⟨0, _⟩ => rfl | ⟨1, _⟩ => rfl
theorem lidx_v1 (b : Fin 8) (t : Fin 2048) (d : Fin 64) (c : Fin 512) : lidx_main_v1 (ix3 b t d) c = ix3 b t c :=
  funext fun a => match a with | ⟨0, _⟩ => rfl | ⟨1, _⟩ => rfl | ⟨2, _⟩ => rfl
theorem ridx_v1 (b : Fin 8) (t : Fin 2048) (d : Fin 64) (c : Fin 512) : ridx_main_v1 (ix3 b t d) c = ix2 c d :=
  funext fun a => match a with | ⟨0, _⟩ => rfl | ⟨1, _⟩ => rfl
theorem lidx_v2 (b : Fin 8) (t : Fin 2048) (d : Fin 64) (c : Fin 512) : lidx_main_v2 (ix3 b t d) c = ix3 b t c :=
  funext fun a => match a with | ⟨0, _⟩ => rfl | ⟨1, _⟩ => rfl | ⟨2, _⟩ => rfl
theorem ridx_v2 (b : Fin 8) (t : Fin 2048) (d : Fin 64) (c : Fin 512) : ridx_main_v2 (ix3 b t d) c = ix2 c d :=
  funext fun a => match a with | ⟨0, _⟩ => rfl | ⟨1, _⟩ => rfl
theorem lidx_v3 (b : Fin 8) (t u : Fin 2048) (d : Fin 64) : lidx_main_v3 (ix3 b t u) d = ix3 b t d :=
  funext fun a => match a with | ⟨0, _⟩ => rfl | ⟨1, _⟩ => rfl | ⟨2, _⟩ => rfl
theorem ridx_v3 (b : Fin 8) (t u : Fin 2048) (d : Fin 64) : ridx_main_v3 (ix3 b t u) d = ix3 b u d :=
  funext fun a => match a with | ⟨0, _⟩ => rfl | ⟨1, _⟩ => rfl | ⟨2, _⟩ => rfl

/-! ## The projections -/

/-- The key projection stage at (b, t, d). -/
theorem v0_at (b : Fin 8) (t : Fin 2048) (d : Fin 64) :
    val_main_v0 (F := Ideal) x W (ix3 b t d) = proj x W b t d := by
  rw [val_main_v0_apply]
  exact Finset.sum_congr rfl fun c _ => by rw [lidx_v0, ridx_v0]
/-- The query projection stage at (b, t, d). -/
theorem v1_at (b : Fin 8) (t : Fin 2048) (d : Fin 64) :
    val_main_v1 (F := Ideal) x W (ix3 b t d) = proj x W b t d := by
  rw [val_main_v1_apply]
  exact Finset.sum_congr rfl fun c _ => by rw [lidx_v1, ridx_v1]
/-- The value projection stage at (b, t, d). -/
theorem v2_at (b : Fin 8) (t : Fin 2048) (d : Fin 64) :
    val_main_v2 (F := Ideal) x W (ix3 b t d) = proj x W b t d := by
  rw [val_main_v2_apply]
  exact Finset.sum_congr rfl fun c _ => by rw [lidx_v2, ridx_v2]

/-! ## The score, divided by 8 -/

/-- The raw score stage at (b, t, u): the query row t against the key row u. -/
theorem v3_at (b : Fin 8) (t u : Fin 2048) :
    val_main_v3 (F := Ideal) x Wk Wq (ix3 b t u) = ∑ d : Fin 64, proj x Wq b t d * proj x Wk b u d := by
  rw [val_main_v3_apply]
  exact Finset.sum_congr rfl fun d _ => by rw [lidx_v3, ridx_v3, v1_at, v0_at]

/-- The divisor stage is 8 at every index: the broadcast of the square root of the constant 64. -/
theorem v5_at (i : S8x2048x2048.Idx) : val_main_v5 (F := Ideal) i = ((8 : ℝ) : EReal) := by
  rw [val_main_v5_apply, val_main_v4_apply, val_main_cst_apply, Ideal.hostUnary_sqrt_def, Ideal.ofBits_def]
  exact sqrt_ofBits_64

/-- The divided score stage at (b, t, u). -/
theorem v6_at (b : Fin 8) (t u : Fin 2048) :
    val_main_v6 (F := Ideal) x Wk Wq (ix3 b t u) = scoreDivided x Wk Wq b t u := by
  rw [val_main_v6_apply, v3_at, v5_at, Ideal.hostDivf_def]
  rfl

/-! ## The row maximum -/

/-- The shape relation of the reduction over the key axis, as the witness that names the inserted index. -/
theorem reduces_d2 : S8x2048x2048.Reduces [2] S8x2048 := by decide

/-- The index (b, t) with the key position u inserted on the reduced axis is (b, t, u). -/
theorem lift_d2 (b : Fin 8) (t u : Fin 2048) : reduces_d2.lift (ix2 b t) u = ix3 b t u :=
  funext fun a => match a with | ⟨0, _⟩ => Fin.ext rfl | ⟨1, _⟩ => Fin.ext rfl | ⟨2, _⟩ => Fin.ext rfl

/-- The max reduce stage at (b, t): the fold of max from −∞ over the key positions of the divided score. -/
theorem v7_at (b : Fin 8) (t : Fin 2048) :
    val_main_v7 (F := Ideal) x Wk Wq (ix2 b t) = rowMax (scoreDivided x Wk Wq) b t := by
  unfold val_main_v7
  rw [Host.reduce_eq_fold_single FloatOps.maximumf _ _ reducesTo_S8x2048x2048_S8x2048_d2 reduces_d2 h_S_ (ix2 b t),
    val_main_cst_0_apply, Ideal.ofBits_def, ofBits_neg_inf]
  unfold rowMax
  have hf : (val_main_v6 (F := Ideal) x Wk Wq ∘ reduces_d2.lift (ix2 b t)) = fun u : Fin 2048 => scoreDivided x Wk Wq b t u :=
    funext fun u : Fin 2048 =>
      (congrArg (val_main_v6 (F := Ideal) x Wk Wq) (lift_d2 b t u)).trans (v6_at x Wk Wq b t u)
  rw [hf]
  rfl

end Cert.ReferenceIdeal.RefValue

end
-- ==== Proof.RefValue.lean ====
/-
  The reference program read at an index, second half: the shifted exponential, the softmax denominator, the
  normalised weights and the value contraction. Together with the first half this says that the program's
  result at (b, t, d) is attnRef of AttnSpec: the weights exp(s − max) are divided by their sum one by one
  and then contracted against the value projection.

  The maximum with a broadcast −∞ that follows the max reduce changes nothing, because max ⊥ a = a; the two
  broadcasts after each reduction read the reduced value at (b, t) whatever the key position; the add reduce
  starts from the constant 0, and 0 + a = a.
-/
import proofs.«411043_j23192823399108_3_alg».proof.Proof.RefValueScore

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x : (⟨S8x2048x512, .f32⟩ : BufTy).Contents (Elt Ideal)) (Wk Wq Wv : (⟨S512x64, .f32⟩ : BufTy).Contents (Elt Ideal))

/-! ## The index functions at an index given by its coordinates -/

theorem idx_v10_v11 (b : Fin 8) (t u : Fin 2048) : idx_main_v10 (idx_main_v11 (ix3 b t u)) = ix2 b t :=
  funext fun a => match a with | ⟨0, _⟩ => rfl | ⟨1, _⟩ => rfl
theorem idx_v14 (b : Fin 8) (t u : Fin 2048) : idx_main_v14 (ix2 b t) u = ix3 b t u :=
  funext fun a => match a with | ⟨0, _⟩ => rfl | ⟨1, _⟩ => rfl | ⟨2, _⟩ => rfl
theorem idx_v15_v16 (b : Fin 8) (t u : Fin 2048) : idx_main_v15 (idx_main_v16 (ix3 b t u)) = ix2 b t :=
  funext fun a => match a with | ⟨0, _⟩ => rfl | ⟨1, _⟩ => rfl
theorem lidx_v18 (b : Fin 8) (t : Fin 2048) (d : Fin 64) (u : Fin 2048) : lidx_main_v18 (ix3 b t d) u = ix3 b t u :=
  funext fun a => match a with | ⟨0, _⟩ => rfl | ⟨1, _⟩ => rfl | ⟨2, _⟩ => rfl
theorem ridx_v18 (b : Fin 8) (t : Fin 2048) (d : Fin 64) (u : Fin 2048) : ridx_main_v18 (ix3 b t d) u = ix3 b u d :=
  funext fun a => match a with | ⟨0, _⟩ => rfl | ⟨1, _⟩ => rfl | ⟨2, _⟩ => rfl

/-! ## The row maximum, broadcast -/

/-- The maximum of the broadcast −∞ and the max reduce at (b, t) is the row maximum. -/
theorem v9_at (b : Fin 8) (t : Fin 2048) :
    val_main_v9 (F := Ideal) x Wk Wq (ix2 b t) = rowMax (scoreDivided x Wk Wq) b t := by
  rw [val_main_v9_apply, val_main_v8_apply, val_main_cst_1_apply, v7_at, Ideal.maximumf_def, Ideal.ofBits_def,
    ofBits_neg_inf]
  exact max_eq_right bot_le

/-- Broadcast over the key axis, the row maximum is read at (b, t) whatever u. -/
theorem v11_at (b : Fin 8) (t u : Fin 2048) :
    val_main_v11 (F := Ideal) x Wk Wq (ix3 b t u) = rowMax (scoreDivided x Wk Wq) b t := by
  rw [val_main_v11_apply, val_main_v10_apply, idx_v10_v11, v9_at]

/-! ## The shifted exponential and its sum -/

/-- The exponential stage at (b, t, u). -/
theorem v13_at (b : Fin 8) (t u : Fin 2048) :
    val_main_v13 (F := Ideal) x Wk Wq (ix3 b t u) = expo (scoreDivided x Wk Wq) b t u := by
  rw [val_main_v13_apply, val_main_v12_apply, v6_at, v11_at, Ideal.hostUnary_exp_def, Ideal.subf_def]
  rfl

/-- The add reduce stage at (b, t): from the constant 0, the sum of the exponentials over the key positions. -/
theorem v14_at (b : Fin 8) (t : Fin 2048) :
    val_main_v14 (F := Ideal) x Wk Wq (ix2 b t) = denom (scoreDivided x Wk Wq) b t := by
  rw [val_main_v14_apply, val_main_cst_2_apply, Ideal.ofBits_def, Ideal.ofBits_zero_f32, zero_add]
  exact Finset.sum_congr rfl fun u _ => by rw [idx_v14, v13_at]

/-- Broadcast over the key axis, the denominator is read at (b, t) whatever u. -/
theorem v16_at (b : Fin 8) (t u : Fin 2048) :
    val_main_v16 (F := Ideal) x Wk Wq (ix3 b t u) = denom (scoreDivided x Wk Wq) b t := by
  rw [val_main_v16_apply, val_main_v15_apply, idx_v15_v16, v14_at]

/-- The normalised weight at (b, t, u). -/
theorem v17_at (b : Fin 8) (t u : Fin 2048) :
    val_main_v17 (F := Ideal) x Wk Wq (ix3 b t u)
      = Ideal.div (expo (scoreDivided x Wk Wq) b t u) (denom (scoreDivided x Wk Wq) b t) := by
  rw [val_main_v17_apply, v13_at, v16_at, Ideal.hostDivf_def]

/-! ## The result -/

/-- The reference program's result at (b, t, d) is the reference side of AttnSpec: the weights normalised one by
    one, contracted against the value projection. -/
theorem ref_is_attnRef (x : (⟨Cert.ReferenceIdeal.S8x2048x512, .f32⟩ : BufTy).Contents (Elt Ideal))
    (Wk Wq Wv : (⟨Cert.ReferenceIdeal.S512x64, .f32⟩ : BufTy).Contents (Elt Ideal))
    (b : Fin 8) (t : Fin 2048) (d : Fin 64) :
    Cert.ReferenceIdeal.Read.val_main_v18 x Wk Wq Wv (ValueIdx.ix3 b t d) = Cert.Attn.attnRef x Wk Wq Wv b t d := by
  rw [val_main_v18_apply]
  unfold attnRef outNormBefore
  exact Finset.sum_congr rfl fun u _ => by rw [lidx_v18, ridx_v18, v17_at, v2_at]

end Cert.ReferenceIdeal.RefValue

end
-- ==== Proof.AttnLaw.lean ====
/-
  The law that joins the two attention functions of AttnSpec on real inputs: with every input a real number
  every projection, score, row maximum, exponential and denominator is a real number, the denominator is a sum of
  exponentials and so is positive, and the two differences (the 1/8 folded into the query matrix against a division
  by 8; one division after the value contraction against one per weight) are distributivity in ℝ.
-/
import proofs.«411043_j23192823399108_3_alg».proof.Proof.AttnSpec

noncomputable section

open scoped BigOperators

namespace Cert.Attn

open Idealize.ShloMosaic Idealize.ShloMosaic.ValueIdx

/-! ### Finite sums and maxima of real numbers, read in the extended reals -/

/-- A finite sum of real numbers, read in the extended reals, is the real sum. -/
theorem coe_sum {ι : Type} (S : Finset ι) (f : ι → ℝ) :
    (∑ k ∈ S, ((f k : ℝ) : EReal)) = ((∑ k ∈ S, f k : ℝ) : EReal) := by
  induction S using Finset.cons_induction with
  | empty => simp
  | cons a S ha ih => rw [Finset.sum_cons, Finset.sum_cons, ih, EReal.coe_add]

/-- A finite sum of products of real numbers, read in the extended reals. -/
theorem coe_sum_mul {ι : Type} (S : Finset ι) (f g : ι → ℝ) :
    (∑ k ∈ S, ((f k : ℝ) : EReal) * ((g k : ℝ) : EReal)) = ((∑ k ∈ S, f k * g k : ℝ) : EReal) := by
  rw [← coe_sum]
  exact Finset.sum_congr rfl fun k _ => (EReal.coe_mul _ _).symm

/-- The maximum of two real numbers, read in the extended reals. -/
theorem coe_max (x y : ℝ) : max (x : EReal) (y : EReal) = ((max x y : ℝ) : EReal) :=
  (EReal.coe_strictMono.monotone.map_max).symm

/-- Over a non-empty finite set the fold of max from −∞ over real numbers is a real number: the
    maximum is attained. -/
theorem fold_max_coe {ι : Type} (f : ι → ℝ) {S : Finset ι} (hS : S.Nonempty) :
    ∃ M : ℝ, S.fold max ⊥ (fun u => ((f u : ℝ) : EReal)) = (M : EReal) := by
  induction hS using Finset.Nonempty.cons_induction with
  | singleton a => exact ⟨f a, by rw [Finset.fold_singleton, max_eq_left bot_le]⟩
  | cons a S ha hS ih =>
    obtain ⟨M, hM⟩ := ih
    exact ⟨max (f a) M, by rw [Finset.fold_cons, hM, coe_max]⟩

/-! ### The two places, over abstract finite index sets -/

/-- Distributivity, with a nonzero real denominator: one division after the contraction is one division per
    weight. -/
theorem div_sum_eq_sum_div {ι : Type} (S : Finset ι) (e v : ι → ℝ) {L : ℝ} (hL : L ≠ 0) :
    Ideal.div (∑ u ∈ S, ((e u : ℝ) : EReal) * ((v u : ℝ) : EReal)) (L : EReal)
      = ∑ u ∈ S, Ideal.div ((e u : ℝ) : EReal) (L : EReal) * ((v u : ℝ) : EReal) := by
  have h : ∀ u, Ideal.div ((e u : ℝ) : EReal) (L : EReal) = ((e u * (1 / L) : ℝ) : EReal) := fun u => by
    rw [Ideal.div_coe hL, ← EReal.coe_mul]
  simp only [h]
  rw [coe_sum_mul, coe_sum_mul, Ideal.div_coe hL, ← EReal.coe_mul, Finset.sum_mul]
  congr 1
  exact Finset.sum_congr rfl fun u _ => by ring

/-! ### The real-valued projections and score -/

/-- The projection as a real sum. -/
def projR (xr : SX.Idx → ℝ) (Wr : SW.Idx → ℝ) (b : Fin 8) (t : Fin 2048) (d : Fin 64) : ℝ :=
  ∑ c : Fin 512, xr (ix3 b t c) * Wr (ix2 c d)

/-- The scaled score as a real number: the contraction of the two projections, times 1/8. -/
def scoreR (xr : SX.Idx → ℝ) (Wkr Wqr : SW.Idx → ℝ) (b : Fin 8) (t u : Fin 2048) : ℝ :=
  (∑ d : Fin 64, projR xr Wqr b t d * projR xr Wkr b u d) * (1 / 8)

theorem proj_coe (xr : SX.Idx → ℝ) (Wr : SW.Idx → ℝ) :
    proj (fun i => (xr i : EReal)) (fun i => (Wr i : EReal)) = fun b t d => ((projR xr Wr b t d : ℝ) : EReal) := by
  funext b t d
  exact coe_sum_mul _ _ _

theorem projScaled_coe (xr : SX.Idx → ℝ) (Wr : SW.Idx → ℝ) (b : Fin 8) (t : Fin 2048) (d : Fin 64) :
    projScaled (fun i => (xr i : EReal)) (fun i => (Wr i : EReal)) b t d
      = ((projR xr Wr b t d * (1 / 8) : ℝ) : EReal) := by
  unfold projScaled projR
  simp only [← EReal.coe_mul]
  rw [coe_sum, Finset.sum_mul]
  congr 1
  exact Finset.sum_congr rfl fun c _ => by ring

/-- The 1/8 folded into the query matrix: the score is the real score. -/
theorem scoreScaledW_coe (xr : SX.Idx → ℝ) (Wkr Wqr : SW.Idx → ℝ) :
    scoreScaledW (fun i => (xr i : EReal)) (fun i => (Wkr i : EReal)) (fun i => (Wqr i : EReal))
      = fun b t u => ((scoreR xr Wkr Wqr b t u : ℝ) : EReal) := by
  funext b t u
  unfold scoreScaledW scoreR
  simp only [projScaled_coe, proj_coe]
  rw [coe_sum_mul, Finset.sum_mul]
  congr 1
  exact Finset.sum_congr rfl fun d _ => by ring

/-- The division by 8 after the contraction: the score is the same real score. -/
theorem scoreDivided_coe (xr : SX.Idx → ℝ) (Wkr Wqr : SW.Idx → ℝ) :
    scoreDivided (fun i => (xr i : EReal)) (fun i => (Wkr i : EReal)) (fun i => (Wqr i : EReal))
      = fun b t u => ((scoreR xr Wkr Wqr b t u : ℝ) : EReal) := by
  funext b t u
  unfold scoreDivided scoreR
  simp only [proj_coe]
  rw [coe_sum_mul, Ideal.div_coe (by norm_num : (8 : ℝ) ≠ 0), ← EReal.coe_mul]

/-! ### The softmax of a real score -/

/-- For a real score and real values, normalising after the value contraction is normalising every weight. -/
theorem outNormAfter_eq_outNormBefore (sr : Fin 8 → Fin 2048 → Fin 2048 → ℝ) (vr : Fin 8 → Fin 2048 → Fin 64 → ℝ)
    (b : Fin 8) (t : Fin 2048) (d : Fin 64) :
    outNormAfter (fun b t u => ((sr b t u : ℝ) : EReal)) (fun b u d => ((vr b u d : ℝ) : EReal)) b t d
      = outNormBefore (fun b t u => ((sr b t u : ℝ) : EReal)) (fun b u d => ((vr b u d : ℝ) : EReal)) b t d := by
  obtain ⟨M, hM⟩ := fold_max_coe (fun u => sr b t u) (Finset.univ_nonempty : (Finset.univ : Finset (Fin 2048)).Nonempty)
  have hexp : ∀ u, expo (fun b t u => ((sr b t u : ℝ) : EReal)) b t u = ((Real.exp (sr b t u - M) : ℝ) : EReal) := fun u => by
    unfold expo rowMax
    rw [hM, ← EReal.coe_sub, Ideal.exp_coe]
  have hden : denom (fun b t u => ((sr b t u : ℝ) : EReal)) b t = ((∑ u : Fin 2048, Real.exp (sr b t u - M) : ℝ) : EReal) := by
    unfold denom
    simp only [hexp]
    exact coe_sum _ _
  have hpos : (0 : ℝ) < ∑ u : Fin 2048, Real.exp (sr b t u - M) :=
    Finset.sum_pos (fun u _ => Real.exp_pos _) Finset.univ_nonempty
  unfold outNormAfter outNormBefore
  simp only [hexp, hden]
  exact div_sum_eq_sum_div _ _ _ hpos.ne'

/-- On real inputs the two sides are one function. -/
theorem attnKernel_eq_attnRef (xr : SX.Idx → ℝ) (Wkr Wqr Wvr : SW.Idx → ℝ) (b : Fin 8) (t : Fin 2048) (d : Fin 64) :
    attnKernel (fun i => (xr i : EReal)) (fun i => (Wkr i : EReal)) (fun i => (Wqr i : EReal)) (fun i => (Wvr i : EReal)) b t d
      = attnRef (fun i => (xr i : EReal)) (fun i => (Wkr i : EReal)) (fun i => (Wqr i : EReal)) (fun i => (Wvr i : EReal)) b t d := by
  unfold attnKernel attnRef
  rw [scoreScaledW_coe, scoreDivided_coe, proj_coe]
  exact outNormAfter_eq_outNormBefore _ _ b t d

end Cert.Attn

end
-- ==== Proof.FiniteInputs.lean ====
/-
  The precondition "every float input is finite", decoded. It is the conjunction over the four inputs of
  "every entry x has |x| < +∞", each an all-reduction by ∧ of the entrywise comparison. On the extended reals
  |x| = max x (−x) is +∞ exactly at the two infinities, so an entry with |x| < +∞ is a real number, and an array
  all of whose entries are real is the image of an array of reals.
-/
import proofs.«411043_j23192823399108_3_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attn.Finite

open Idealize.ShloMosaic Idealize.ShloMosaic.ValueIdx

/-- The rank-0 shape has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry: the comparison |x| < +∞ answering 1 makes x a real number. -/
theorem real_of_cmp (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [Ideal.cmpf_def, Ideal.hostAbsf_def, Ideal.absf_def, ofBits_inf] at h
  refine real_of_abs_lt_top x ?_
  by_contra hn
  simp only [Ideal.cmp, decide_eq_false hn] at h
  exact absurd h (by decide)

/-- One array: every entry passing the comparison makes the array the image of a real array. -/
theorem array_real {s : Shape} (a : FVec Ideal s .f32)
    (hb : Cert.Pre_finite_inputs.S_.BroadcastsInDim s (![] : Fin 0 → Fin s.rank))
    (h : ∀ i, cmpf .olt (Host.absf a)
      (broadcastInDim s ![] hb (constant (F := Ideal) Cert.Pre_finite_inputs.S_ .f32 0x7F800000#32)) i = 1#1) :
    ∃ r : s.Idx → ℝ, a = fun i => (r i : EReal) := by
  have hr : ∀ i, ∃ r : ℝ, a i = (r : EReal) := fun i => real_of_cmp (a i) (h i)
  choose r hr using hr
  exact ⟨r, funext hr⟩

/-- The precondition holding makes each of the four inputs the image of a real array. -/
theorem real_of_finite [Cert.Pre_finite_inputs.Facts] (a0 : FVec Ideal Cert.Pre_finite_inputs.S8x2048x512 .f32)
    (a1 a2 a3 : FVec Ideal Cert.Pre_finite_inputs.S512x64 .f32)
    (h : Cert.Pre_finite_inputs.fn (F := Ideal) a0 a1 a2 a3 = fun _ => 1#1) :
    (∃ r : Cert.Pre_finite_inputs.S8x2048x512.Idx → ℝ, a0 = fun i => (r i : EReal))
      ∧ (∃ r : Cert.Pre_finite_inputs.S512x64.Idx → ℝ, a1 = fun i => (r i : EReal))
      ∧ (∃ r : Cert.Pre_finite_inputs.S512x64.Idx → ℝ, a2 = fun i => (r i : EReal))
      ∧ (∃ r : Cert.Pre_finite_inputs.S512x64.Idx → ℝ, a3 = fun i => (r i : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨array_real a0 _ (Host.reduce_andi_all _ _ _ _ _ h0'), array_real a1 _ (Host.reduce_andi_all _ _ _ _ _ h1),
    array_real a2 _ (Host.reduce_andi_all _ _ _ _ _ h2), array_real a3 _ (Host.reduce_andi_all _ _ _ _ _ h3)⟩

end Cert.Attn.Finite

end
-- ==== Proof.lean ====
/-
  Single-head attention, kernel against reference, over the extended reals.

  The kernel program projects the input with one matmul against the concatenated slab [Wq/8 | Wk | Wv] (one
  pallas_call over 8 row blocks) and computes, per batch and query tile, exp (s − max s) against the keys, its row sums,
  its contraction with the values, and one division by the row sums (a second pallas_call over an 8 × 4 grid). The
  reference projects with three einsums, divides the scores by √64, and takes jax's softmax before contracting with the
  values. On finite inputs the two results are one function (Proof/AttnSpec.lean, Proof/AttnLaw.lean): 1/8 folded into
  Wq against a division by √64 = 8, and one division after the value contraction against one per weight, both by
  distributivity over the reals, the row sum being a positive real.

  The frames: each kernel program's run is the launch theorem for a list of segments over the two regions' body
  triples (Proof/K?ProjFrame.lean, Proof/K?AttnFrame.lean, Proof/K?Run.lean), whose post names every unscoped buffer at
  the end; the reference's is its run with the result dropped. The idealization rewrote nothing, so there is nothing to
  preserve. For the equivalence the kernel's result is read off its run index by index (Proof/KiProjValue.lean,
  Proof/KiAttnValue.lean, Proof/KiHostValue.lean, Proof/KiKernelValue.lean), the reference's off its run
  (Proof/RefValue.lean), and the precondition gives the real witnesses the law needs (Proof/FiniteInputs.lean).
-/
import proofs.«411043_j23192823399108_3_alg».proof.Defs
import proofs.«411043_j23192823399108_3_alg».proof.Proof.Gen.Kernel
import proofs.«411043_j23192823399108_3_alg».proof.Proof.Gen.KernelIdeal
import proofs.«411043_j23192823399108_3_alg».proof.Proof.Gen.ReferenceIdeal
import proofs.«411043_j23192823399108_3_alg».proof.Proof.Gen.ReferenceIdeal.Run
import proofs.«411043_j23192823399108_3_alg».proof.Proof.Gen.ReferenceIdeal.Read
import proofs.«411043_j23192823399108_3_alg».proof.Proof.Gen.Pre_finite_inputs
import proofs.«411043_j23192823399108_3_alg».proof.Proof.KbRun
import proofs.«411043_j23192823399108_3_alg».proof.Proof.KiRun
import proofs.«411043_j23192823399108_3_alg».proof.Proof.KiKernelValue
import proofs.«411043_j23192823399108_3_alg».proof.Proof.RefValue
import proofs.«411043_j23192823399108_3_alg».proof.Proof.AttnLaw
import proofs.«411043_j23192823399108_3_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its arguments as launched. -/
theorem frame_kernel : Cert.frame_Kernel := fun m ρ _ =>
  (θ_run Cert.Kernel.defs _ _).mono (fun _ h c => (h c).2) (Cert.Kernel.Frame.run_result (F := Bits) m ρ)

/-- So does the idealized one. -/
theorem frame_kernelIdeal : Cert.frame_KernelIdeal := fun m ρ _ =>
  (θ_run Cert.KernelIdeal.defs _ _).mono (fun _ h c => (h c).2) (Cert.KernelIdeal.Frame.run_result (F := Ideal) m ρ)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on finite arguments the two idealized programs end with one result: the kernel's run
    names its result array as what the attention region leaves, the reference's as its composed term; read at any
    (b, t, d) the first is attnKernel and the second attnRef of the arguments, which the law identifies on reals. -/
theorem algebraic : Cert.algebraic_KernelIdeal_ReferenceIdeal := by
  intro m ρ m' ρ' hpre hagree
  refine ⟨fun c => (Cert.KernelIdeal.Frame.attnDat (F := Ideal) (Cert.KernelIdeal.Frame.refsAttnIn m) c).arrAt 3 Cert.KernelIdeal.cfg1.N,
    Cert.KernelIdeal.Frame.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨⟨xr, hx⟩, ⟨kr, hk⟩, ⟨qr, hq⟩, ⟨vr, hv⟩⟩ := Cert.Attn.Finite.real_of_finite _ _ _ _ (hpre c)
  rw [Cert.ReferenceIdeal.Read.val_main_v18_eq, (hagree c).1, (hagree c).2.1, (hagree c).2.2.1, (hagree c).2.2.2]
  funext i
  obtain ⟨b, t, d, rfl⟩ : ∃ (b : Fin 8) (t : Fin 2048) (d : Fin 64), i = ix3 b t d := ⟨i 0, i 1, i 2, eq_ix3 i⟩
  rw [Cert.ReferenceIdeal.RefValue.ref_is_attnRef]
  show _ = (Cert.KernelIdeal.Frame.attnDat (F := Ideal) (Cert.KernelIdeal.Frame.refsAttnIn m) c).arrAt 3 Cert.KernelIdeal.cfg1.N (ix3 b t d)
  rw [Cert.KernelIdeal.Val.kernel_result_apply, hx, hk, hq, hv]
  exact (Cert.Attn.attnKernel_eq_attnRef xr kr qr vr b t d).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
